-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) (main_arg1 : FVec F S128x100000 .f32) : IVec S_ 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 1 := constantI S_ 1 1#1
  let main_v3 : IVec S_ 1 := (fun x v => Host.reduce IntOp.andi x v reducesTo_S128x100000_S_d0_1 h_S_) main_v2 main_c
  let main_v4 : FVec F S128x100000 .f32 := Host.absf main_arg1
  let main_cst_0 : FVec F S_ .f32 := constant S_ .f32 0x7F800000#32
  let main_v5 : FVec F S128x100000 .f32 := broadcastInDim S128x100000 ![] bcast_S_S128x100000 main_cst_0
  let main_v6 : IVec S128x100000 1 := cmpf .olt main_v4 main_v5
  let main_c_1 : IVec S_ 1 := constantI S_ 1 1#1
  let main_v7 : IVec S_ 1 := (fun x v => Host.reduce IntOp.andi x v reducesTo_S128x100000_S_d0_1 h_S_) main_v6 main_c_1
  let main_v8 : IVec S_ 1 := andi main_v3 main_v7
  main_v8
-- ==== Kernel.lean ====
abbrev S128x100000 : Shape := ⟨2, ![128, 100000]⟩
abbrev S100000x128 : Shape := ⟨2, ![100000, 128]⟩
abbrev S10000x128 : Shape := ⟨2, ![10000, 128]⟩
abbrev S10x128 : Shape := ⟨2, ![10, 128]⟩
abbrev S128 : Shape := ⟨1, ![128]⟩
abbrev S1x128 : Shape := ⟨2, ![1, 128]⟩

abbrev nBuf : Space → Nat
  | .hbm => 6
  | .vmem => 10
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S100000x128, .f32⟩
  | .hbm, ⟨3, _⟩ => ⟨S100000x128, .f32⟩
  | .hbm, ⟨4, _⟩ => ⟨S100000x128, .f32⟩
  | .hbm, ⟨5, _⟩ => ⟨S128x100000, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S100000x128, .bf16⟩
  | .local _ .vmem, ⟨7, _⟩ => ⟨S10x128, .f32⟩
  | .local _ .vmem, ⟨8, _⟩ => ⟨S10x128, .f32⟩
  | .local _ .vmem, ⟨9, _⟩ => ⟨S10x128, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c10_i32 : BitVec 32 := 10#32
  let v0 : BitVec 1 := Scalar.cmpi .slt arg0 c10_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c10000_i32 : BitVec 32 := 10000#32
  let v22 : BitVec 32 := Scalar.muli arg0 c10000_i32
  let v23 : Index := Scalar.indexCast v22
  let c0_8 : Index := 0#32
  ![v23.toNat, 0]
def k0_off2 (i : grid0.Coords) : Fin 2 → Nat :=
  let arg0 : BitVec 32 := BitVec.ofNat 32 (i 0).val
  let v27 : Index := Scalar.indexCast arg0
  let c0_9 : Index := 0#32
  ![v27.toNat, 0]
def k0_cond3 (i : grid0.Coords) : BitVec 1 :=
  let arg0 : BitVec 32 := BitVec.ofNat 32 (i 0).val
  let c10_i32_2 : BitVec 32 := 10#32
  let v6 : BitVec 1 := Scalar.cmpi .sge arg0 c10_i32_2
  let v7 : BitVec 32 := Scalar.extui v6
  let c0_i32_3 : BitVec 32 := 0#32
  let v8 : BitVec 1 := Scalar.cmpi .ne v7 c0_i32_3
  v8

def k0_off3 (i : grid0.Coords) : Fin 2 → Nat :=
  let arg0 : BitVec 32 := BitVec.ofNat 32 (i 0).val
  let c10_i32_4 : BitVec 32 := 10#32
  let v9 : BitVec 32 := Scalar.subi arg0 c10_i32_4
  let c10000_i32 : BitVec 32 := 10000#32
  let v10 : BitVec 32 := Scalar.muli v9 c10000_i32
  let v11 : Index := Scalar.indexCast v10
  let c0 : Index := 0#32
  ![v11.toNat, 0]
def k0_off4 (i : grid0.Coords) : Fin 2 → Nat :=
  let arg0 : BitVec 32 := BitVec.ofNat 32 (i 0).val
  let c10_i32_4 : BitVec 32 := 10#32
  let v9 : BitVec 32 := Scalar.subi arg0 c10_i32_4
  let v14 : Index := Scalar.indexCast v9
  let c0_5 : Index := 0#32
  ![v14.toNat, 0]
def cc0_transform_0 (i : grid0.Coords) : Fin 2 → Nat :=
  let arg0 : BitVec 32 := BitVec.ofNat 32 (i 0).val
  let c10_i32 : BitVec 32 := 10#32
  let v0 : BitVec 1 := Scalar.cmpi .slt arg0 c10_i32
  let c9_i32 : BitVec 32 := 9#32
  let v1 : BitVec 32 := Scalar.select v0 arg0 c9_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c10_i32 : BitVec 32 := 10#32
  let v0 : BitVec 1 := Scalar.cmpi .slt arg0 c10_i32
  let c9_i32 : BitVec 32 := 9#32
  let v1 : BitVec 32 := Scalar.select v0 arg0 c9_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c10_i32 : BitVec 32 := 10#32
  let v0 : BitVec 1 := Scalar.cmpi .slt arg0 c10_i32
  let c10_i32_0 : BitVec 32 := 10#32
  let v1 : BitVec 32 := Scalar.subi arg0 c10_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S128x100000_S100000x128_1_0 : S128x100000.Transposes [1, 0] S100000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S10000x128_S128 : S10000x128.Reduces [0] S128
  shapeCasts_S128_S1x128 : S128.ShapeCasts S1x128
  broadcasts_S1x128_S10000x128 : S1x128.Broadcasts S10000x128
  bitsLt_bf16_f32 : FTy.bits .bf16 < FTy.bits .f32
  h_S1x128 : 0 < S1x128.numel
  shapeCasts_S1x128_S1x128 : S1x128.ShapeCasts S1x128
  inb_S10x128_S10x128_0_0 : ∀ a, (![0, 0] : Fin 2 → Nat) a + S10x128.size a ≤ S10x128.size a
  h_S10x128 : 0 < S10x128.numel
  reduces_S10x128_S128 : S10x128.Reduces [0] S128
  broadcasts_S1x128_S10x128 : S1x128.Broadcasts S10x128
  shapeCasts_S10x128_S10x128 : S10x128.ShapeCasts S10x128
  transposes_S100000x128_S128x100000_1_0 : S100000x128.Transposes [1, 0] S128x100000
  hrank0 : 0 < grid0.rank
  k0_off1_inb : ∀ i : grid0.Coords, ∀ (k0_h1 : k0_cond1 i = 1#1), ∀ a, (k0_off1 i) a + S10000x128.size a ≤ S100000x128.size a
  k0_off1_packedbf16 : ∀ i : grid0.Coords, ∀ (k0_h1 : k0_cond1 i = 1#1), (Rect.unit (s := S100000x128) (k0_off1 i) S10000x128.size (k0_off1_inb i k0_h1)).PackedRows (EltTy.packing .bf16)
  k0_off2_inb : ∀ i : grid0.Coords, ∀ (k0_h1 : k0_cond1 i = 1#1), ∀ a, (k0_off2 i) a + S1x128.size a ≤ S10x128.size a
  k0_off3_inb : ∀ i : grid0.Coords, ∀ (k0_h3 : k0_cond3 i = 1#1), ∀ a, (k0_off3 i) a + S10000x128.size a ≤ S100000x128.size a
  k0_off4_inb : ∀ i : grid0.Coords, ∀ (k0_h3 : k0_cond3 i = 1#1), ∀ a, (k0_off4 i) a + S1x128.size a ≤ S10x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)

variable [Facts₀]

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩

abbrev nBuf : Space → Nat
  | .hbm => 20
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x100000, .f32⟩
  | .hbm, ⟨3, _⟩ => ⟨S_, .f32⟩
  | .hbm, ⟨4, _⟩ => ⟨S128x100000, .f32⟩
  | .hbm, ⟨5, _⟩ => ⟨S128x100000, .f32⟩
  | .hbm, ⟨6, _⟩ => ⟨S_, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128x1, .f32⟩
  | .hbm, ⟨12, _⟩ => ⟨S128x100000, .f32⟩
  | .hbm, ⟨13, _⟩ => ⟨S128x100000, .f32⟩
  | .hbm, ⟨14, _⟩ => ⟨S128x100000, .f32⟩
  | .hbm, ⟨15, _⟩ => ⟨S_, .f32⟩
  | .hbm, ⟨16, _⟩ => ⟨S128, .f32⟩
  | .hbm, ⟨17, _⟩ => ⟨S128x1, .f32⟩
  | .hbm, ⟨18, _⟩ => ⟨S128x100000, .f32⟩
  | .hbm, ⟨19, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S128x100000 : S_.BroadcastsInDim S128x100000 (![] : Fin 0 → Fin S128x100000.rank)
  reducesTo_S128x100000_S128_d1 : S128x100000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)

variable [Facts₀]

class Facts : Prop extends Facts₀ where

variable [Facts]
-- ==== Proof.K.Cases.lean ====
/-
  The three control cases of the kernel body over the grid of 20 points: the first ten points run the sweep
  (chunk maxima, exponentials, sums), point ten alone runs the combination, points ten to nineteen run the
  rescaling. The offsets the body computes from the point, in closed form; where the result window is idle
  and where it is written back.
-/
import proofs.«166809_g81492709474519_cont_9to1c4b_556_13_alg».proof.Proof.Gen.Kernel.Frame
import proofs.«166809_g81492709474519_cont_9to1c4b_556_13_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The sweep's condition: the point is one of the first ten. -/
abbrev cond0_0 (i : grid0.Coords) : Prop := k0_cond1 i = 1#1
/-- The combination's condition: the point is the eleventh. -/
abbrev cond0_1 (i : grid0.Coords) : Prop :=
  (Scalar.cmpi .ne (Scalar.extui (Scalar.cmpi .eq (BitVec.ofNat 32 (i 0).val) 10#32)) 0#32) = 1#1
/-- The rescaling's condition: the point is one of the last ten. -/
abbrev cond0_2 (i : grid0.Coords) : Prop := k0_cond3 i = 1#1

theorem hcond0_0 : ∀ t : Fin cfg0.N, cond0_0 (grid0.coords t) ↔ t.val < 10 :=
  (by decide +kernel : ∀ t : Fin grid0.N, cond0_0 (grid0.coords t) ↔ t.val < 10)
theorem hcond0_1 : ∀ t : Fin cfg0.N, cond0_1 (grid0.coords t) ↔ t.val = 10 :=
  (by decide +kernel : ∀ t : Fin grid0.N, cond0_1 (grid0.coords t) ↔ t.val = 10)
theorem hcond0_2 : ∀ t : Fin cfg0.N, cond0_2 (grid0.coords t) ↔ 10 ≤ t.val :=
  (by decide +kernel : ∀ t : Fin grid0.N, cond0_2 (grid0.coords t) ↔ 10 ≤ t.val)

/-- The sweep at point `t` stores chunk `t` of the long scratch: rows from `10000 t`. -/
theorem off1_eq : ∀ t : Fin cfg0.N, t.val < 10 → k0_off1 (grid0.coords t) = ![10000 * t.val, 0] :=
  (by decide +kernel : ∀ t : Fin grid0.N, t.val < 10 → k0_off1 (grid0.coords t) = ![10000 * t.val, 0])
/-- and row `t` of the two ten-row scratch arrays. -/
theorem off2_eq : ∀ t : Fin cfg0.N, t.val < 10 → k0_off2 (grid0.coords t) = ![t.val, 0] :=
  (by decide +kernel : ∀ t : Fin grid0.N, t.val < 10 → k0_off2 (grid0.coords t) = ![t.val, 0])
/-- The rescaling at point `t` loads chunk `t - 10` of the long scratch -/
theorem off3_eq : ∀ t : Fin cfg0.N, 10 ≤ t.val → k0_off3 (grid0.coords t) = ![10000 * (t.val - 10), 0] :=
  (by decide +kernel : ∀ t : Fin grid0.N, 10 ≤ t.val → k0_off3 (grid0.coords t) = ![10000 * (t.val - 10), 0])
/-- and row `t - 10` of the scales. -/
theorem off4_eq : ∀ t : Fin cfg0.N, 10 ≤ t.val → k0_off4 (grid0.coords t) = ![t.val - 10, 0] :=
  (by decide +kernel : ∀ t : Fin grid0.N, 10 ≤ t.val → k0_off4 (grid0.coords t) = ![t.val - 10, 0])

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- During the sweep the result window is idle and not written back. -/
theorem idleAt0_2 : ∀ t : Fin cfg0.N, t.val < 10 → cfg0.idle 2 (grid0.coords t) = true := by decide +kernel
theorem noFlush0_2 : ∀ t : Fin cfg0.N, t.val < 10 → (cfg0.win 2).flush t = false := by decide +kernel
/-- During the rescaling it is live and written back at every point. -/
theorem liveAt0_2 : ∀ t : Fin cfg0.N, 10 ≤ t.val → cfg0.idle 2 (grid0.coords t) = false := by decide +kernel
theorem flush0_2 : ∀ t : Fin cfg0.N, 10 ≤ t.val → (cfg0.win 2).flush t = true := by decide +kernel
/-- The block the result window writes back at point `t` of the rescaling is block `t - 10`. -/
theorem index0_2 : ∀ t : Fin cfg0.N, 10 ≤ t.val → win0_2.index t = ![t.val - 10, 0] :=
  (by decide +kernel : ∀ t : Fin grid0.N, 10 ≤ t.val → win0_2.index t = ![t.val - 10, 0])
/-- The block the operand windows hold at point `t` of the sweep is block `t`. -/
theorem index0_0 : ∀ t : Fin cfg0.N, t.val < 10 → win0_0.index t = ![t.val, 0] :=
  (by decide +kernel : ∀ t : Fin grid0.N, t.val < 10 → win0_0.index t = ![t.val, 0])
theorem index0_1 : ∀ t : Fin cfg0.N, t.val < 10 → win0_1.index t = ![t.val, 0] :=
  (by decide +kernel : ∀ t : Fin grid0.N, t.val < 10 → win0_1.index t = ![t.val, 0])

end Cert.Kernel.Hand

end
-- ==== Proof.K.KDefs.lean ====
/-
  What the kernel computes, as functions of its two whole (transposed) operand arrays: the sweep over the
  first ten grid points leaves, per chunk of 10000 rows, the exponentials of the chunk's entries less the
  chunk's column maxima, those maxima, and the column sums of the exponentials; the eleventh point turns
  maxima and sums into one scale per chunk and column; the last ten points multiply each chunk of
  exponentials by its scale row.
-/
import proofs.«166809_g81492709474519_cont_9to1c4b_556_13_alg».proof.Proof.Gen.Kernel.Skeleton
import Idealize.ShloMosaic.Lib.ValueIdx

noncomputable section

namespace Cert.Kernel.Hand

open Idealize.ShloMosaic Idealize.ShloMosaic.ValueIdx Cert.Kernel Cert.Kernel.Gen

variable {F : FTy → Type} [FloatOps F]

/-- Row `10000 * i + r` of the long array, as a row index. -/
def rowOf (i : Fin 10) (r : Fin 10000) : Fin 100000 := ⟨10000 * i.val + r.val, by have := i.isLt; have := r.isLt; omega⟩

/-- Rows `[10000 i, 10000 i + 10000)` of a 100000-row array: chunk `i`. -/
def chunk {e : EltTy} (X : Vec F S100000x128 e) (i : Fin 10) : Vec F S10000x128 e :=
  fun y => X (ix2 (rowOf i ⟨(y 0).val, idx2_lt0 y⟩) ⟨(y 1).val, idx2_lt1 y⟩)

/-- Row `i` of a ten-row array, as a one-row array. -/
def row10 {e : EltTy} (M : Vec F S10x128 e) (i : Fin 10) : Vec F S1x128 e :=
  fun y => M (ix2 i ⟨(y 1).val, idx2_lt1 y⟩)

/-- Chunk `i`'s exponentials (entries less the chunk's column maxima), as stored in the long scratch. -/
def Epay (X0 X1 : Vec F S100000x128 .f32) (i : Fin 10) : Vec F S10000x128 .bf16 :=
  k0_pay4 (chunk X0 i) (chunk X1 i)

/-- The ten rows of chunk maxima. -/
def MM (X0 X1 : Vec F S100000x128 .f32) : Vec F S10x128 .f32 :=
  fun j => k0_pay5 (chunk X0 ⟨(j 0).val, idx2_lt0 j⟩) (chunk X1 ⟨(j 0).val, idx2_lt0 j⟩) (ix2 (0 : Fin 1) ⟨(j 1).val, idx2_lt1 j⟩)

/-- The ten rows of chunk sums of exponentials. -/
def PP (X0 X1 : Vec F S100000x128 .f32) : Vec F S10x128 .f32 :=
  fun j => k0_pay6 (chunk X0 ⟨(j 0).val, idx2_lt0 j⟩) (chunk X1 ⟨(j 0).val, idx2_lt0 j⟩) (ix2 (0 : Fin 1) ⟨(j 1).val, idx2_lt1 j⟩)

/-- The ten rows of scales. -/
def FF (X0 X1 : Vec F S100000x128 .f32) : Vec F S10x128 .f32 :=
  k0_pay7 (MM X0 X1) (PP X0 X1)

/-- Output block `i`: chunk `i`'s exponentials times scale row `i`. -/
def OUTB (X0 X1 : Vec F S100000x128 .f32) (i : Fin 10) : Vec F S10000x128 .f32 :=
  k0_pay8 (Epay X0 X1 i) (row10 (FF X0 X1) i)

/-- The whole result array (in the kernel's transposed layout): row `r` lies in block `r / 10000`. -/
def KOUT (X0 X1 : Vec F S100000x128 .f32) : Vec F S100000x128 .f32 :=
  fun y => OUTB X0 X1 ⟨(y 0).val / 10000, by have := idx2_lt0 y; omega⟩
    (ix2 (⟨(y 0).val % 10000, Nat.mod_lt _ (by decide)⟩ : Fin 10000) ⟨(y 1).val, idx2_lt1 y⟩)

end Cert.Kernel.Hand

end
-- ==== Proof.K.Data.lean ====
/-
  The proof data of the one pipeline: what the three scratch-carried quantities hold before each grid point
  (chunks of exponentials, rows of chunk maxima and chunk sums filled in during the first ten points; the scales
  from the eleventh on), and what the body leaves in each window's staging buffer.
-/
import proofs.«166809_g81492709474519_cont_9to1c4b_556_13_alg».proof.Proof.K.Cases
import proofs.«166809_g81492709474519_cont_9to1c4b_556_13_alg».proof.Proof.K.KDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The two operand arrays as the region finds them: the transposed arguments. -/
abbrev xarr0 (c : Dev nD) : Vec F S100000x128 .f32 := V m c main_v0
abbrev xarr1 (c : Dev nD) : Vec F S100000x128 .f32 := V m c main_v1

/-- The scratch operands as memrefs. -/
abbrev scM0 : Memref sig .tc .vmem S100000x128 .bf16 := Memref.whole cc0_scratch0
abbrev scM1 : Memref sig .tc .vmem S10x128 .f32 := Memref.whole cc0_scratch1
abbrev scM2 : Memref sig .tc .vmem S10x128 .f32 := Memref.whole cc0_scratch2
abbrev scM3 : Memref sig .tc .vmem S10x128 .f32 := Memref.whole cc0_scratch3

/-- What the scratch arrays hold before point `n`: the chunks and rows of the points below `n` (at most ten) are
    filled in; from point eleven on the scales are there. Rows not yet written are not described. -/
def Inv (c : Dev nD) (n : ℕ) (E : Vec F S100000x128 .bf16) (Mv Pv Fv : Vec F S10x128 .f32) : Prop :=
  (∀ i : Fin 10, i.val < n → ∀ (r : Fin 10000) (b : Fin 128),
      E (ix2 (rowOf i r) b) = Epay (xarr0 m c) (xarr1 m c) i (ix2 r b))
  ∧ (∀ i : Fin 10, i.val < n → ∀ b : Fin 128, Mv (ix2 i b) = MM (xarr0 m c) (xarr1 m c) (ix2 i b))
  ∧ (∀ i : Fin 10, i.val < n → ∀ b : Fin 128, Pv (ix2 i b) = PP (xarr0 m c) (xarr1 m c) (ix2 i b))
  ∧ (11 ≤ n → Fv = FF (xarr0 m c) (xarr1 m c))

/-- The region invariant before point `n`: the four scratch arrays at contents satisfying `Inv`, the generator
    register at some state. -/
def PhiS (c : Dev nD) (n : ℕ) : sProp 𝕄 :=
  iprop(∃ (E : Vec F S100000x128 .bf16) (Mv Pv Fv : Vec F S10x128 .f32), ⌜Inv m c n E Mv Pv Fv⌝
    ∗ owns (c : Thread nD τ) scM0 fullShare E ∗ owns (c : Thread nD τ) scM1 fullShare Mv
    ∗ owns (c : Thread nD τ) scM2 fullShare Pv ∗ owns (c : Thread nD τ) scM3 fullShare Fv ∗ (∃ r, prngReg c r))

/-- The output block of point `t` of the rescaling (`t - 10`; the expression is total in `t`, and read only
    where `10 ≤ t`). -/
def outIdx (t : Fin cfg0.N) : Fin 10 := ⟨(t.val - 10) % 10, Nat.mod_lt _ (by decide)⟩

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => OUTB (xarr0 m c) (xarr1 m c) (outIdx t)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = OUTB (xarr0 m c) (xarr1 m c) (outIdx t) := by dsimp only [dats]

theorem Phi_eq (c : Dev nD) (t : Fin (cfg0.N + 1)) : (dats m 0 c).Φ t = PhiS m c t.val := by dsimp only [dats]

/-- Each operand's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.Kernel.Hand

end
-- ==== Proof.K.Runs.lean ====
/-
  The kernel body's three control cases as triples over any whole memrefs: what each case reads and what it
  leaves. The sweep overwrites one chunk of the long scratch and one row of each of the two ten-row scratch
  arrays and leaves every other row as it was; the combination overwrites the scales whole; the rescaling
  fills the result's buffer with a chunk of the long scratch times a row of the scales.
-/
import proofs.«166809_g81492709474519_cont_9to1c4b_556_13_alg».proof.Proof.K.Cases
import Idealize.ShloMosaic.Lib.WritesUnit
import Idealize.ShloMosaic.Lib.ValueIdx
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

/-- Array `E'` is array `E` with the `W` rows from row `o` replaced by the rows of `w`. -/
def RowsUpd {n W : ℕ} {e : EltTy} (o : ℕ) (E E' : Vec F (⟨2, ![n, 128]⟩ : Shape) e) (w : Vec F (⟨2, ![W, 128]⟩ : Shape) e) : Prop :=
  (∀ (r : Fin W) (b : Fin 128) (h : o + r.val < n), E' (ix2 ⟨o + r.val, h⟩ b) = w (ix2 r b))
    ∧ ∀ y : (⟨2, ![n, 128]⟩ : Shape).Idx, ((y 0).val < o ∨ o + W ≤ (y 0).val) → E' y = E y

/-- The whole-buffer rectangle's offsets are zero. -/
theorem off0 : (![0, 0] : Fin 2 → ℕ) = fun _ => 0 := funext fun a => by fin_cases a <;> rfl

/-- What one store of whole rows `[o, o + W)` leaves, read through the memref, is the rows' update. -/
theorem rowsUpd_of_write {n W : ℕ} {e : EltTy} {κ : Kind} {sp : Space} (v : View sig κ sp (⟨2, ![n, 128]⟩ : Shape) e)
    (f : v.ty.Contents (Elt F)) {off : Fin 2 → ℕ} (o : ℕ) (hoff : off = ![o, 0])
    (inb : ∀ a : Fin 2, off a + (![W, 128] : Fin 2 → ℕ) a ≤ (![n, 128] : Fin 2 → ℕ) a)
    (w : Vec F (⟨2, ![W, 128]⟩ : Shape) e) :
    RowsUpd (F := F) o (v.read (Elt F) f)
      (v.read (Elt F) (v.writes (Elt F) f [⟨Rect.unit (s := ⟨2, ![n, 128]⟩) off ![W, 128] inb, w⟩])) w := by
  refine ⟨fun r b h => ?_, fun y hy => ?_⟩
  · exact View.read_writes_cons_rows_of_mem v f inb w [] (ix2 ⟨o + r.val, h⟩ b) (ix2 r b) hoff rfl rfl
  · exact View.read_writes_cons_rows_of_not_mem (W := W) v f inb w [] y hoff rfl hy

section Runs

variable (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S100000x128 .bf16) (harg4 : arg4.IsWhole) (arg5 : Memref sig .tc .vmem S10x128 .f32) (harg5 : arg5.IsWhole) (arg6 : Memref sig .tc .vmem S10x128 .f32) (harg6 : arg6.IsWhole) (arg7 : Memref sig .tc .vmem S10x128 .f32) (harg7 : arg7.IsWhole)

set_option maxHeartbeats 400000 in
/-- THE SWEEP (one of the first ten points): from the two operand blocks `x0`, `x1` it stores the chunk's exponentials
    into rows `[o1, o1 + 10000)` of the long scratch and the chunk's maxima and sums into row `o2` of the two ten-row
    arrays; every other row keeps its contents. -/
theorem runA (hc0 : cond0_0 i) (hc1 : ¬cond0_1 i) (hc2 : ¬cond0_2 i) (o1 o2 : ℕ)
    (hoff1 : k0_off1 i = ![o1, 0]) (hoff2 : k0_off2 i = ![o2, 0])
    (x0 x1 : Vec F S10000x128 .f32) (E : Vec F S100000x128 .bf16) (Mv Pv : Vec F S10x128 .f32)
    (Eset : Set ℕ) (K : PUnit → sProp 𝕄) :
    iprop(owns (c : Thread nD τ) arg1 fullShare x0 ∗ owns (c : Thread nD τ) arg2 fullShare x1
        ∗ owns (c : Thread nD τ) arg4 fullShare E ∗ owns (c : Thread nD τ) arg5 fullShare Mv ∗ owns (c : Thread nD τ) arg6 fullShare Pv
        ∗ (iprop(owns (c : Thread nD τ) arg1 fullShare x0 ∗ owns (c : Thread nD τ) arg2 fullShare x1
            ∗ (∃ E', ⌜RowsUpd (F := F) o1 E E' (k0_pay4 x0 x1)⌝ ∗ owns (c : Thread nD τ) arg4 fullShare E')
            ∗ (∃ M', ⌜RowsUpd (F := F) o2 Mv M' (k0_pay5 x0 x1)⌝ ∗ owns (c : Thread nD τ) arg5 fullShare M')
            ∗ (∃ P', ⌜RowsUpd (F := F) o2 Pv P' (k0_pay6 x0 x1)⌝ ∗ owns (c : Thread nD τ) arg6 fullShare P')) -∗ K ⟨⟩))
      ⊢ wp frame (wpE (defs₀ (F := F)) Variants.none c none) Eset (cc0_body i arg1 harg1 arg2 harg2 arg3 harg3 arg4 harg4 arg5 harg5 arg6 harg6 arg7 harg7) K := by
  simp only [cc0_body_eq_skeleton]; unfold cc0_body_skel
  unfold owns
  iintro ⟨⟨%f0, %hf0, H0⟩, ⟨%f1, %hf1, H1⟩, ⟨%fE, %hfE, HE⟩, ⟨%fM, %hfM, HM⟩, ⟨%fP, %hfP, HP⟩, Hk⟩
  obtain rfl := harg1.eq_unread hf0; obtain rfl := harg2.eq_unread hf1
  subst hfE hfM hfP
  sl_exec (disch := first | exact hc0 | exact hc1 | exact hc2)
  sl_step
  have e0 : View.readAt (Elt F) arg1.view (Rect.unit ![0, 0] S10000x128.size inb_S10000x128_S10000x128_0_0).toLoadRect (harg1.unread x0) = x0 := by
    rw [View.readAt_eq_ld, harg1.read_unread]; exact View.ld_unit_zero off0 _ _
  have e1 : View.readAt (Elt F) arg2.view (Rect.unit ![0, 0] S10000x128.size inb_S10000x128_S10000x128_0_0).toLoadRect (harg2.unread x1) = x1 := by
    rw [View.readAt_eq_ld, harg2.read_unread]; exact View.ld_unit_zero off0 _ _
  rw [e0, e1]
  have hE := rowsUpd_of_write arg4.view fE o1 hoff1 (k0_off1_inb i hc0) (k0_pay4 x0 x1)
  have hM := rowsUpd_of_write arg5.view fM o2 hoff2 (k0_off2_inb i hc0) (k0_pay5 x0 x1)
  have hP := rowsUpd_of_write arg6.view fP o2 hoff2 (k0_off2_inb i hc0) (k0_pay6 x0 x1)
  iapply Hk
  isplitl [H0]
  · iexists _; isplitr; · ipureintro; exact harg1.read_unread _
    iexact H0
  isplitl [H1]
  · iexists _; isplitr; · ipureintro; exact harg2.read_unread _
    iexact H1
  isplitl [HE]
  · iexists _; isplitr; · ipureintro; exact hE
    iexists _; isplitr; · ipureintro; rfl
    iexact HE
  isplitl [HM]
  · iexists _; isplitr; · ipureintro; exact hM
    iexists _; isplitr; · ipureintro; rfl
    iexact HM
  · iexists _; isplitr; · ipureintro; exact hP
    iexists _; isplitr; · ipureintro; rfl
    iexact HP

end Runs

end Cert.Kernel.Hand

end
-- ==== Proof.K.RunB.lean ====
/-
  The kernel body at the eleventh grid point: the combination (maxima and sums to scales) followed by the first
  rescaling.
-/
import proofs.«166809_g81492709474519_cont_9to1c4b_556_13_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

/-- What one whole-array store leaves, read through the memref, is the stored array. -/
theorem runB_read_store_whole {n m : ℕ} {e : EltTy} {κ : Kind} {sp : Space} (v : View sig κ sp (⟨2, ![n, m]⟩ : Shape) e)
    (f : v.ty.Contents (Elt F))
    (inb : ∀ a : Fin 2, (![0, 0] : Fin 2 → ℕ) a + (⟨2, ![n, m]⟩ : Shape).size a ≤ (⟨2, ![n, m]⟩ : Shape).size a)
    (w : Vec F (⟨2, ![n, m]⟩ : Shape) e) :
    v.read (Elt F) (v.writes (Elt F) f [⟨Rect.unit (s := ⟨2, ![n, m]⟩) ![0, 0] (⟨2, ![n, m]⟩ : Shape).size inb, w⟩]) = w := by
  rw [View.read_writes_eq_canon _ _ _ (fun y => ⟨_, List.mem_singleton_self _, View.mem_set_unit_zero off0 inb y⟩)]
  exact View.canon_unit_zero off0 inb w

section Runs

variable (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S100000x128 .bf16) (harg4 : arg4.IsWhole) (arg5 : Memref sig .tc .vmem S10x128 .f32) (harg5 : arg5.IsWhole) (arg6 : Memref sig .tc .vmem S10x128 .f32) (harg6 : arg6.IsWhole) (arg7 : Memref sig .tc .vmem S10x128 .f32) (harg7 : arg7.IsWhole)

set_option maxHeartbeats 400000 in
/-- THE COMBINATION AND FIRST RESCALING (the eleventh point): from the ten rows of maxima `Mv` and sums `Pv` it stores the
    scales whole, then fills the result's buffer with the chunk of the long scratch at the point's offset times the
    row of the scales at the point's offset. The long scratch and the two ten-row arrays keep their contents. -/
theorem runB (hc0 : ¬cond0_0 i) (hc1 : cond0_1 i) (hc2 : cond0_2 i)
    (E : Vec F S100000x128 .bf16) (Mv Pv : Vec F S10x128 .f32)
    (Eset : Set ℕ) (K : PUnit → sProp 𝕄) :
    iprop(owns (c : Thread nD τ) arg4 fullShare E ∗ owns (c : Thread nD τ) arg5 fullShare Mv ∗ owns (c : Thread nD τ) arg6 fullShare Pv
        ∗ (∃ d, owns (c : Thread nD τ) arg7 fullShare d) ∗ (∃ d, owns (c : Thread nD τ) arg3 fullShare d)
        ∗ (iprop(owns (c : Thread nD τ) arg4 fullShare E ∗ owns (c : Thread nD τ) arg5 fullShare Mv ∗ owns (c : Thread nD τ) arg6 fullShare Pv
            ∗ owns (c : Thread nD τ) arg7 fullShare (k0_pay7 Mv Pv)
            ∗ owns (c : Thread nD τ) arg3 fullShare
                (k0_pay8 (View.ld E (Rect.unit (s := S100000x128) (k0_off3 i) S10000x128.size (k0_off3_inb i hc2)))
                  (View.ld (k0_pay7 Mv Pv) (Rect.unit (s := S10x128) (k0_off4 i) S1x128.size (k0_off4_inb i hc2))))) -∗ K ⟨⟩))
      ⊢ wp frame (wpE (defs₀ (F := F)) Variants.none c none) Eset (cc0_body i arg1 harg1 arg2 harg2 arg3 harg3 arg4 harg4 arg5 harg5 arg6 harg6 arg7 harg7) K := by
  simp only [cc0_body_eq_skeleton]; unfold cc0_body_skel
  unfold owns
  iintro ⟨⟨%fE, %hfE, HE⟩, ⟨%fM, %hfM, HM⟩, ⟨%fP, %hfP, HP⟩, ⟨%d7, %f7, -, H7⟩, ⟨%d3, %f3, -, H3⟩, Hk⟩
  subst hfE hfM hfP
  obtain ⟨o, ho, hob⟩ : ∃ o, k0_off4 i = ![o, 0] ∧ o + 1 ≤ 10 :=
    ⟨(k0_off4 i) 0, funext fun a => by fin_cases a <;> rfl, k0_off4_inb i hc2 0⟩
  letI : ClosedOff (k0_off4 i) := ⟨![o, 0], ho⟩
  sl_exec (disch := first | exact hc0 | exact hc1 | exact hc2)
  sl_step
  sl_unfold_run_names
  have eM : View.readAt (Elt F) arg5.view (Rect.unit ![0, 0] S10x128.size inb_S10x128_S10x128_0_0).toLoadRect fM
      = View.read (Elt F) arg5.view fM := by
    rw [View.readAt_eq_ld]; exact View.ld_unit_zero off0 _ _
  have eP : View.readAt (Elt F) arg6.view (Rect.unit ![0, 0] S10x128.size inb_S10x128_S10x128_0_0).toLoadRect fP
      = View.read (Elt F) arg6.view fP := by
    rw [View.readAt_eq_ld]; exact View.ld_unit_zero off0 _ _
  rw [eM, eP]
  have e7 := runB_read_store_whole (F := F) arg7.view arg7.view.junk inb_S10x128_S10x128_0_0
    (k0_pay7 (View.read (Elt F) arg5.view fM) (View.read (Elt F) arg6.view fP))
  have e15 : View.readAt (Elt F) arg7.view (Rect.unit (s := S10x128) (k0_off4 i) S1x128.size (k0_off4_inb i hc2)).toLoadRect
      (arg7.view.writes (Elt F) arg7.view.junk [⟨Rect.unit ![0, 0] S10x128.size inb_S10x128_S10x128_0_0,
        k0_pay7 (View.read (Elt F) arg5.view fM) (View.read (Elt F) arg6.view fP)⟩])
      = View.ld (k0_pay7 (View.read (Elt F) arg5.view fM) (View.read (Elt F) arg6.view fP))
          (Rect.unit (s := S10x128) (k0_off4 i) S1x128.size (k0_off4_inb i hc2)) := by
    rw [View.readAt_eq_ld, e7]
  rw [e15]
  have e3 := runB_read_store_whole (F := F) arg3.view f3 inb_S10000x128_S10000x128_0_0
    (k0_pay8 (View.ld (View.read (Elt F) arg4.view fE) (Rect.unit (s := S100000x128) (k0_off3 i) S10000x128.size (k0_off3_inb i hc2)))
      (View.ld (k0_pay7 (View.read (Elt F) arg5.view fM) (View.read (Elt F) arg6.view fP))
        (Rect.unit (s := S10x128) (k0_off4 i) S1x128.size (k0_off4_inb i hc2))))
  iapply Hk
  isplitl [HE]
  · iexists _; isplitr; · ipureintro; rfl
    iexact HE
  isplitl [HM]
  · iexists _; isplitr; · ipureintro; rfl
    iexact HM
  isplitl [HP]
  · iexists _; isplitr; · ipureintro; rfl
    iexact HP
  isplitl [H7]
  · iexists _; isplitr; · ipureintro; exact e7
    iexact H7
  · iexists _; isplitr; · ipureintro; exact e3
    iexact H3

end Runs

end Cert.Kernel.Hand

end
-- ==== Proof.K.RunC.lean ====
/-
  The kernel body at the last nine grid points: the rescaling alone.
-/
import proofs.«166809_g81492709474519_cont_9to1c4b_556_13_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

section Runs

variable (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S100000x128 .bf16) (harg4 : arg4.IsWhole) (arg5 : Memref sig .tc .vmem S10x128 .f32) (harg5 : arg5.IsWhole) (arg6 : Memref sig .tc .vmem S10x128 .f32) (harg6 : arg6.IsWhole) (arg7 : Memref sig .tc .vmem S10x128 .f32) (harg7 : arg7.IsWhole)

set_option maxHeartbeats 400000 in
/-- THE RESCALING (one of the last nine points): fills the result's buffer with the chunk of the long scratch at the
    point's offset times the row of the scales at the point's offset; both scratch arrays keep their contents. -/
theorem runC (hc0 : ¬cond0_0 i) (hc1 : ¬cond0_1 i) (hc2 : cond0_2 i)
    (E : Vec F S100000x128 .bf16) (Fv : Vec F S10x128 .f32)
    (Eset : Set ℕ) (K : PUnit → sProp 𝕄) :
    iprop(owns (c : Thread nD τ) arg4 fullShare E ∗ owns (c : Thread nD τ) arg7 fullShare Fv ∗ (∃ d, owns (c : Thread nD τ) arg3 fullShare d)
        ∗ (iprop(owns (c : Thread nD τ) arg4 fullShare E ∗ owns (c : Thread nD τ) arg7 fullShare Fv
            ∗ owns (c : Thread nD τ) arg3 fullShare
                (k0_pay8 (View.ld E (Rect.unit (s := S100000x128) (k0_off3 i) S10000x128.size (k0_off3_inb i hc2)))
                  (View.ld Fv (Rect.unit (s := S10x128) (k0_off4 i) S1x128.size (k0_off4_inb i hc2))))) -∗ K ⟨⟩))
      ⊢ wp frame (wpE (defs₀ (F := F)) Variants.none c none) Eset (cc0_body i arg1 harg1 arg2 harg2 arg3 harg3 arg4 harg4 arg5 harg5 arg6 harg6 arg7 harg7) K := by
  simp only [cc0_body_eq_skeleton]; unfold cc0_body_skel
  unfold owns
  iintro ⟨⟨%fE, %hfE, HE⟩, ⟨%fS, %hfS, HS⟩, ⟨%d, %fR, -, HR⟩, Hk⟩
  subst hfE hfS
  sl_exec (disch := first | exact hc0 | exact hc1 | exact hc2)
  sl_step
  have hW : ∀ P : Vec F S10000x128 .f32,
      View.read (Elt F) arg3.view
        (arg3.view.writes (Elt F) fR
          [⟨Rect.unit (s := S10000x128) ![0, 0] S10000x128.size inb_S10000x128_S10000x128_0_0, P⟩]) = P := by
    intro P
    refine (View.read_writes_eq_canon _ _ _ (fun y => ⟨_, List.mem_singleton_self _,
      View.mem_set_unit_zero off0 inb_S10000x128_S10000x128_0_0 y⟩)).trans ?_
    exact View.canon_unit_zero off0 inb_S10000x128_S10000x128_0_0 P
  have hR := hW (k0_pay8
    (View.readAt (Elt F) arg4.view (Rect.unit (s := S100000x128) (k0_off3 i) S10000x128.size (k0_off3_inb i hc2)).toLoadRect fE)
    (View.readAt (Elt F) arg7.view (Rect.unit (s := S10x128) (k0_off4 i) S1x128.size (k0_off4_inb i hc2)).toLoadRect fS))
  iapply Hk
  isplitl [HE]
  · iexists _; isplitr; · ipureintro; rfl
    iexact HE
  isplitl [HS]
  · iexists _; isplitr; · ipureintro; rfl
    iexact HS
  · iexists _; isplitr; · ipureintro; exact hR
    iexact HR

end Runs

end Cert.Kernel.Hand

end
-- ==== Proof.K.InvStep.lean ====
/-
  How the invariant on the scratch arrays moves from one grid point to the next, and what the rescaling reads: pure
  facts about arrays, rows and chunks.
-/
import proofs.«166809_g81492709474519_cont_9to1c4b_556_13_alg».proof.Proof.K.Data
import proofs.«166809_g81492709474519_cont_9to1c4b_556_13_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- During the sweep the first operand's block at point `t` is chunk `t` of the first operand array. -/
theorem iblk0_eq (c : Dev nD) (t : Fin cfg0.N) (ht : t.val < 10) :
    (iblk m c 0 t : Vec F S10000x128 .f32) = chunk (xarr0 m c) ⟨t.val, ht⟩ := by
  funext y
  show V m c main_v0 (((cfg0.win 0).blk t).view.emb y) = V m c main_v0 _
  refine congrArg (V m c main_v0) ?_
  funext a
  refine Fin.ext ?_
  match a with
  | ⟨0, _⟩ =>
    show win0_0.index t 0 * 10000 + 1 * (y 0).val = 10000 * t.val + (y 0).val
    rw [index0_0 t ht]
    show t.val * 10000 + 1 * (y 0).val = 10000 * t.val + (y 0).val
    omega
  | ⟨1, _⟩ =>
    show win0_0.index t 1 * 128 + 1 * (y 1).val = (y 1).val
    rw [index0_0 t ht]
    show 0 * 128 + 1 * (y 1).val = (y 1).val
    omega

/-- During the sweep the second operand's block at point `t` is chunk `t` of the second operand array. -/
theorem iblk1_eq (c : Dev nD) (t : Fin cfg0.N) (ht : t.val < 10) :
    (iblk m c 1 t : Vec F S10000x128 .f32) = chunk (xarr1 m c) ⟨t.val, ht⟩ := by
  funext y
  show V m c main_v1 (((cfg0.win 1).blk t).view.emb y) = V m c main_v1 _
  refine congrArg (V m c main_v1) ?_
  funext a
  refine Fin.ext ?_
  match a with
  | ⟨0, _⟩ =>
    show win0_1.index t 0 * 10000 + 1 * (y 0).val = 10000 * t.val + (y 0).val
    rw [index0_1 t ht]
    show t.val * 10000 + 1 * (y 0).val = 10000 * t.val + (y 0).val
    omega
  | ⟨1, _⟩ =>
    show win0_1.index t 1 * 128 + 1 * (y 1).val = (y 1).val
    rw [index0_1 t ht]
    show 0 * 128 + 1 * (y 1).val = (y 1).val
    omega

/-- THE SWEEP'S STEP: with chunk `t` and row `t` written from the point's operand blocks, the invariant holds one point
    further. -/
theorem inv_sweep (c : Dev nD) (t : Fin cfg0.N) (ht : t.val < 10)
    {E E' : Vec F S100000x128 .bf16} {Mv M' Pv P' Fv : Vec F S10x128 .f32}
    (h : Inv m c t.val E Mv Pv Fv)
    (hE : RowsUpd (F := F) (10000 * t.val) E E' (k0_pay4 (iblk m c 0 t) (iblk m c 1 t)))
    (hM : RowsUpd (F := F) t.val Mv M' (k0_pay5 (iblk m c 0 t) (iblk m c 1 t)))
    (hP : RowsUpd (F := F) t.val Pv P' (k0_pay6 (iblk m c 0 t) (iblk m c 1 t))) :
    Inv m c (t.val + 1) E' M' P' Fv := by
  rw [iblk0_eq m c t ht, iblk1_eq m c t ht] at hE hM hP
  refine ⟨fun i hi r b => ?_, fun i hi b => ?_, fun i hi b => ?_, fun h11 => absurd h11 (by omega)⟩
  · by_cases hlt : i.val < t.val
    · have hmiss := hE.2 (ix2 (rowOf i r) b) (Or.inl (by
        show 10000 * i.val + r.val < 10000 * t.val
        have := r.isLt
        omega))
      rw [hmiss]
      exact h.1 i hlt r b
    · have hi' : i = ⟨t.val, ht⟩ := Fin.ext (by show i.val = t.val; omega)
      subst hi'
      exact hE.1 r b (by have := r.isLt; omega)
  · by_cases hlt : i.val < t.val
    · have hmiss := hM.2 (ix2 i b) (Or.inl (by show i.val < t.val; exact hlt))
      rw [hmiss]
      exact h.2.1 i hlt b
    · have hi' : i = ⟨t.val, ht⟩ := Fin.ext (by show i.val = t.val; omega)
      subst hi'
      exact hM.1 (0 : Fin 1) b (by show t.val + 0 < 10; omega)
  · by_cases hlt : i.val < t.val
    · have hmiss := hP.2 (ix2 i b) (Or.inl (by show i.val < t.val; exact hlt))
      rw [hmiss]
      exact h.2.2.1 i hlt b
    · have hi' : i = ⟨t.val, ht⟩ := Fin.ext (by show i.val = t.val; omega)
      subst hi'
      exact hP.1 (0 : Fin 1) b (by show t.val + 0 < 10; omega)

/-- THE COMBINATION'S STEP: with all ten rows of maxima and sums in place, the scales computed from them are the
    scales of the operand arrays. -/
theorem inv_combine (c : Dev nD) {E : Vec F S100000x128 .bf16} {Mv Pv Fv : Vec F S10x128 .f32}
    (h : Inv m c 10 E Mv Pv Fv) : Inv m c 11 E Mv Pv (k0_pay7 Mv Pv) := by
  refine ⟨fun i _ => h.1 i i.isLt, fun i _ => h.2.1 i i.isLt, fun i _ => h.2.2.1 i i.isLt, fun _ => ?_⟩
  have hMv : Mv = MM (xarr0 m c) (xarr1 m c) := by
    funext j
    obtain ⟨i, b, rfl⟩ : ∃ (i : Fin 10) (b : Fin 128), j = ix2 i b := ⟨j 0, j 1, eq_ix2 j⟩
    exact h.2.1 i i.isLt b
  have hPv : Pv = PP (xarr0 m c) (xarr1 m c) := by
    funext j
    obtain ⟨i, b, rfl⟩ : ∃ (i : Fin 10) (b : Fin 128), j = ix2 i b := ⟨j 0, j 1, eq_ix2 j⟩
    exact h.2.2.1 i i.isLt b
  rw [hMv, hPv]
  rfl

/-- Past the eleventh point nothing changes. -/
theorem inv_mono (c : Dev nD) {n : ℕ} (hn : 11 ≤ n) {E : Vec F S100000x128 .bf16} {Mv Pv Fv : Vec F S10x128 .f32}
    (h : Inv m c n E Mv Pv Fv) : Inv m c (n + 1) E Mv Pv Fv := by
  exact ⟨fun i _ => h.1 i (by have := i.isLt; omega), fun i _ => h.2.1 i (by have := i.isLt; omega),
    fun i _ => h.2.2.1 i (by have := i.isLt; omega), fun _ => h.2.2.2 hn⟩

/-- WHAT THE RESCALING LEAVES at point `t` (one of the last ten): with the chunks and the scales in place, the chunk of
    the long scratch at the point's offset times the row of the scales at the point's offset is the output block of the
    point. -/
theorem out_rescale (c : Dev nD) (t : Fin cfg0.N) (ht : 10 ≤ t.val) (hc2 : cond0_2 (grid0.coords t))
    {E : Vec F S100000x128 .bf16} {Mv Pv Fv : Vec F S10x128 .f32}
    (h : Inv m c 11 E Mv Pv Fv) :
    k0_pay8 (View.ld E (Rect.unit (s := S100000x128) (k0_off3 (grid0.coords t)) S10000x128.size (k0_off3_inb (grid0.coords t) hc2)))
        (View.ld Fv (Rect.unit (s := S10x128) (k0_off4 (grid0.coords t)) S1x128.size (k0_off4_inb (grid0.coords t) hc2)))
      = OUTB (xarr0 m c) (xarr1 m c) (outIdx t) := by
  have hN : grid0.N = 20 := N_0
  have htlt : t.val < 20 := by
    have h2 : t.val < grid0.N := t.isLt
    omega
  have ho : (outIdx t).val = t.val - 10 := by
    show (t.val - 10) % 10 = t.val - 10
    omega
  have e1 : (View.ld E (Rect.unit (s := S100000x128) (k0_off3 (grid0.coords t)) S10000x128.size
        (k0_off3_inb (grid0.coords t) hc2)) : Vec F S10000x128 .bf16)
      = Epay (xarr0 m c) (xarr1 m c) (outIdx t) := by
    funext y
    obtain ⟨r, b, rfl⟩ : ∃ (r : Fin 10000) (b : Fin 128), y = ix2 r b := ⟨y 0, y 1, eq_ix2 y⟩
    have hidx : (Rect.unit (s := S100000x128) (k0_off3 (grid0.coords t)) S10000x128.size
        (k0_off3_inb (grid0.coords t) hc2)).idx (ix2 r b) = ix2 (rowOf (outIdx t) r) b := by
      funext a
      refine Fin.ext ?_
      match a with
      | ⟨0, _⟩ =>
        show k0_off3 (grid0.coords t) 0 + 1 * r.val = 10000 * (outIdx t).val + r.val
        rw [off3_eq t ht, ho]
        show 10000 * (t.val - 10) + 1 * r.val = 10000 * (t.val - 10) + r.val
        omega
      | ⟨1, _⟩ =>
        show k0_off3 (grid0.coords t) 1 + 1 * b.val = b.val
        rw [off3_eq t ht]
        show 0 + 1 * b.val = b.val
        omega
    show E ((Rect.unit (s := S100000x128) (k0_off3 (grid0.coords t)) S10000x128.size
        (k0_off3_inb (grid0.coords t) hc2)).idx (ix2 r b)) = _
    rw [hidx]
    exact h.1 (outIdx t) (by have := (outIdx t).isLt; omega) r b
  have hF : Fv = FF (xarr0 m c) (xarr1 m c) := h.2.2.2 (le_refl 11)
  have e2 : (View.ld Fv (Rect.unit (s := S10x128) (k0_off4 (grid0.coords t)) S1x128.size
        (k0_off4_inb (grid0.coords t) hc2)) : Vec F S1x128 .f32)
      = row10 (FF (xarr0 m c) (xarr1 m c)) (outIdx t) := by
    funext y
    obtain ⟨z, b, rfl⟩ : ∃ (z : Fin 1) (b : Fin 128), y = ix2 z b := ⟨y 0, y 1, eq_ix2 y⟩
    have hidx : (Rect.unit (s := S10x128) (k0_off4 (grid0.coords t)) S1x128.size
        (k0_off4_inb (grid0.coords t) hc2)).idx (ix2 z b) = ix2 (outIdx t) b := by
      funext a
      refine Fin.ext ?_
      match a with
      | ⟨0, _⟩ =>
        show k0_off4 (grid0.coords t) 0 + 1 * z.val = (outIdx t).val
        rw [off4_eq t ht, ho]
        show (t.val - 10) + 1 * z.val = t.val - 10
        have := z.isLt
        omega
      | ⟨1, _⟩ =>
        show k0_off4 (grid0.coords t) 1 + 1 * b.val = b.val
        rw [off4_eq t ht]
        show 0 + 1 * b.val = b.val
        omega
    show Fv ((Rect.unit (s := S10x128) (k0_off4 (grid0.coords t)) S1x128.size
        (k0_off4_inb (grid0.coords t) hc2)).idx (ix2 z b)) = _
    rw [hidx, hF]
    rfl
  unfold OUTB
  exact congrArg₂ (k0_pay8 (F := F)) e1 e2

end Cert.Kernel.Hand

end
-- ==== Proof.K.Body.lean ====
/-
  The body obligation at every grid point, the launch and the frame. At a point of the sweep the invariant hands the
  body the scratch arrays with the earlier chunks filled in and takes them back with one more chunk; at the eleventh
  point it takes the scales back as well; during the rescaling the scratch arrays pass through unchanged and the
  result's buffer is left at the output block of the point.
-/
import proofs.«166809_g81492709474519_cont_9to1c4b_556_13_alg».proof.Proof.K.Data
import proofs.«166809_g81492709474519_cont_9to1c4b_556_13_alg».proof.Proof.K.Runs
import proofs.«166809_g81492709474519_cont_9to1c4b_556_13_alg».proof.Proof.K.RunB
import proofs.«166809_g81492709474519_cont_9to1c4b_556_13_alg».proof.Proof.K.RunC
import proofs.«166809_g81492709474519_cont_9to1c4b_556_13_alg».proof.Proof.K.InvStep

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- Each window's current staging memref at point `t`, spelled as the pipeline passes it, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)

/-- The class invariant with the four scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- From the eleventh point on, what the invariant says at any later point it says at the eleventh. -/
theorem inv_eleven (c : Dev nD) {n : ℕ} (hn : 11 ≤ n) {E : Vec F S100000x128 .bf16} {Mv Pv Fv : Vec F S10x128 .f32}
    (h : Inv m c n E Mv Pv Fv) : Inv m c 11 E Mv Pv Fv :=
  ⟨fun i _ => h.1 i (by have := i.isLt; omega), fun i _ => h.2.1 i (by have := i.isLt; omega),
    fun i _ => h.2.2.1 i (by have := i.isLt; omega), fun _ => h.2.2.2 hn⟩

set_option maxHeartbeats 1600000 in
/-- The body at any point: by the point's control case. During the sweep the invariant's scratch arrays go in and come
    back with the point's chunk and rows written; at the eleventh point the scales are computed and the first output
    block is left in the result's buffer; afterwards the scratch arrays pass through and each point leaves its output
    block. The operands' buffers hold their blocks throughout; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [Phi_eq m c t.castSucc, Phi_eq m c t.succ]
  simp only [Fin.coe_castSucc, Fin.val_succ]
  rw [show (dats m 0 c).leavesExact 0 t = owns (c : Thread nD τ) (ms0_0 t) fullShare ((dats m 0 c).after 0 t) from by
        unfold Dat.leavesExact; rw [liveAt0_0 t], after0_0,
      show (dats m 0 c).leavesExact 1 t = owns (c : Thread nD τ) (ms0_1 t) fullShare ((dats m 0 c).after 1 t) from by
        unfold Dat.leavesExact; rw [liveAt0_1 t], after0_1]
  have hN : t.val < 20 := lt_of_lt_of_eq t.isLt (show cfg0.N = 20 from N_0)
  by_cases h0 : t.val < 10
  · -- the sweep
    have hc0 : cond0_0 (grid0.coords t) := (hcond0_0 t).mpr h0
    have hc1 : ¬cond0_1 (grid0.coords t) := fun h => by have := (hcond0_1 t).mp h; omega
    have hc2 : ¬cond0_2 (grid0.coords t) := fun h => by have := (hcond0_2 t).mp h; omega
    rw [Dat.leavesExact_idle (dats m 0 c) 2 t (idleAt0_2 t h0) (noFlush0_2 t h0)]
    unfold PhiS
    iintro ⟨⟨%E, %Mv, %Pv, %Fv, %hInv, HS0, HS1, HS2, HS3, Hg⟩, Ho, ⟨%d0, H0⟩, ⟨%d1, H1⟩, ⟨%d2, H2⟩⟩
    iapply (runA c (grid0.coords t) (ms0_0 t) (hs0_0 t) (ms0_1 t) (hs0_1 t) (ms0_2 t) (hs0_2 t)
      scM0 (Memref.isWhole_whole _) scM1 (Memref.isWhole_whole _) scM2 (Memref.isWhole_whole _) scM3 (Memref.isWhole_whole _)
      hc0 hc1 hc2 (10000 * t.val) t.val (off1_eq t h0) (off2_eq t h0) (iblk m c 0 t) (iblk m c 1 t) E Mv Pv Set.univ _)
    isplitl [H0]; · iexact H0
    isplitl [H1]; · iexact H1
    isplitl [HS0]; · iexact HS0
    isplitl [HS1]; · iexact HS1
    isplitl [HS2]; · iexact HS2
    iintro ⟨H0, H1, ⟨%E', %hE', HS0⟩, ⟨%M', %hM', HS1⟩, ⟨%P', %hP', HS2⟩⟩
    isplitl [HS0 HS1 HS2 HS3 Hg]
    · iexists E', M', P', Fv
      isplitr; · ipureintro; exact inv_sweep m c t h0 hInv hE' hM' hP'
      isplitl [HS0]; · iexact HS0
      isplitl [HS1]; · iexact HS1
      isplitl [HS2]; · iexact HS2
      isplitl [HS3]; · iexact HS3
      iexact Hg
    isplitl [Ho]; · iexact Ho
    isplitl [H0]; · iexact H0
    isplitl [H1]; · iexact H1
    iexists d2; iexact H2
  · have hc0 : ¬cond0_0 (grid0.coords t) := fun h => h0 ((hcond0_0 t).mp h)
    have hc2 : cond0_2 (grid0.coords t) := (hcond0_2 t).mpr (by omega)
    rw [show (dats m 0 c).leavesExact 2 t = owns (c : Thread nD τ) (ms0_2 t) fullShare ((dats m 0 c).after 2 t) from by
          unfold Dat.leavesExact; rw [liveAt0_2 t (by omega)], after0_2]
    by_cases h1 : t.val = 10
    · -- the combination and the first rescaling
      have hc1 : cond0_1 (grid0.coords t) := (hcond0_1 t).mpr h1
      unfold PhiS
      iintro ⟨⟨%E, %Mv, %Pv, %Fv, %hInv, HS0, HS1, HS2, HS3, Hg⟩, Ho, ⟨%d0, H0⟩, ⟨%d1, H1⟩, ⟨%d2, H2⟩⟩
      have hInv11 : Inv m c 11 E Mv Pv (k0_pay7 Mv Pv) := inv_combine m c (h1 ▸ hInv)
      have hout := out_rescale m c t (by omega) hc2 hInv11
      iapply (runB c (grid0.coords t) (ms0_0 t) (hs0_0 t) (ms0_1 t) (hs0_1 t) (ms0_2 t) (hs0_2 t)
        scM0 (Memref.isWhole_whole _) scM1 (Memref.isWhole_whole _) scM2 (Memref.isWhole_whole _) scM3 (Memref.isWhole_whole _)
        hc0 hc1 hc2 E Mv Pv Set.univ _)
      isplitl [HS0]; · iexact HS0
      isplitl [HS1]; · iexact HS1
      isplitl [HS2]; · iexact HS2
      isplitl [HS3]; · iexists Fv; iexact HS3
      isplitl [H2]; · iexists _; iexact H2
      iintro ⟨HS0, HS1, HS2, HS3, H2⟩
      isplitl [HS0 HS1 HS2 HS3 Hg]
      · iexists E, Mv, Pv, (k0_pay7 Mv Pv)
        isplitr; · ipureintro; rw [h1]; exact hInv11
        isplitl [HS0]; · iexact HS0
        isplitl [HS1]; · iexact HS1
        isplitl [HS2]; · iexact HS2
        isplitl [HS3]; · iexact HS3
        iexact Hg
      isplitl [Ho]; · iexact Ho
      isplitl [H0]; · iexact H0
      isplitl [H1]; · iexact H1
      rw [← hout]; iexact H2
    · -- the rescaling alone
      have hc1 : ¬cond0_1 (grid0.coords t) := fun h => h1 ((hcond0_1 t).mp h)
      have ht11 : 11 ≤ t.val := by omega
      unfold PhiS
      iintro ⟨⟨%E, %Mv, %Pv, %Fv, %hInv, HS0, HS1, HS2, HS3, Hg⟩, Ho, ⟨%d0, H0⟩, ⟨%d1, H1⟩, ⟨%d2, H2⟩⟩
      have hout := out_rescale m c t (by omega) hc2 (inv_eleven m c ht11 hInv)
      iapply (runC c (grid0.coords t) (ms0_0 t) (hs0_0 t) (ms0_1 t) (hs0_1 t) (ms0_2 t) (hs0_2 t)
        scM0 (Memref.isWhole_whole _) scM1 (Memref.isWhole_whole _) scM2 (Memref.isWhole_whole _) scM3 (Memref.isWhole_whole _)
        hc0 hc1 hc2 E Fv Set.univ _)
      isplitl [HS0]; · iexact HS0
      isplitl [HS3]; · iexact HS3
      isplitl [H2]; · iexists _; iexact H2
      iintro ⟨HS0, HS3, H2⟩
      isplitl [HS0 HS1 HS2 HS3 Hg]
      · iexists E, Mv, Pv, Fv
        isplitr; · ipureintro; exact inv_mono m c ht11 hInv
        isplitl [HS0]; · iexact HS0
        isplitl [HS1]; · iexact HS1
        isplitl [HS2]; · iexact HS2
        isplitl [HS3]; · iexact HS3
        iexact Hg
      isplitl [Ho]; · iexact Ho
      isplitl [H0]; · iexact H0
      isplitl [H1]; · iexact H1
      rw [← hout]; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is filled in yet. -/
theorem hin (c : Dev nD) : Pipeline.ΦA spec0 c ⊢ (dats m 0 c).Φ 0 := by
  rw [Phi_eq, PhiA0_eq]
  unfold PhiS
  iintro ⟨⟨⟨%E, H0⟩, ⟨%Mv, H1⟩, ⟨%Pv, H2⟩, ⟨%Fv, H3⟩⟩, Hg⟩
  iexists E, Mv, Pv, Fv
  isplitr
  · ipureintro
    exact ⟨fun i h => absurd h (Nat.not_lt_zero _), fun i h => absurd h (Nat.not_lt_zero _),
      fun i h => absurd h (Nat.not_lt_zero _), fun h => absurd h (by decide)⟩
  isplitl [H0]; · iexact H0
  isplitl [H1]; · iexact H1
  isplitl [H2]; · iexact H2
  isplitl [H3]; · iexact H3
  iexact Hg

/-- After the last point the invariant gives the class's back: what the scratch arrays hold is forgotten. -/
theorem hout (c : Dev nD) : (dats m 0 c).Φ (Fin.last cfg0.N) ⊢ Pipeline.ΦA spec0 c := by
  rw [Phi_eq, PhiA0_eq]
  unfold PhiS
  iintro ⟨%E, %Mv, %Pv, %Fv, -, H0, H1, H2, H3, Hg⟩
  isplitr [Hg]
  · isplitl [H0]; · iexists E; iexact H0
    isplitl [H1]; · iexists Mv; iexact H1
    isplitl [H2]; · iexists Pv; iexact H2
    iexists Fv; iexact H3
  iexact Hg

set_option backward.isDefEq.respectTransparency.types false in
/-- At the compiled mesh, for any values, from any memory with zero counters: every weakly fair execution of @main
    terminates, and every final state has every array of the pipeline at what the write-backs leave and every other
    unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, nothing faults, and the two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Cases.lean ====
/-
  The three control cases of the kernel body over the grid of 20 points: the first ten points run the sweep
  (chunk maxima, exponentials, sums), point ten alone runs the combination, points ten to nineteen run the
  rescaling. The offsets the body computes from the point, in closed form; where the result window is idle
  and where it is written back.
-/
import proofs.«166809_g81492709474519_cont_9to1c4b_556_13_alg».proof.Proof.Gen.KernelIdeal.Frame
import proofs.«166809_g81492709474519_cont_9to1c4b_556_13_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The sweep's condition: the point is one of the first ten. -/
abbrev cond0_0 (i : grid0.Coords) : Prop := k0_cond1 i = 1#1
/-- The combination's condition: the point is the eleventh. -/
abbrev cond0_1 (i : grid0.Coords) : Prop :=
  (Scalar.cmpi .ne (Scalar.extui (Scalar.cmpi .eq (BitVec.ofNat 32 (i 0).val) 10#32)) 0#32) = 1#1
/-- The rescaling's condition: the point is one of the last ten. -/
abbrev cond0_2 (i : grid0.Coords) : Prop := k0_cond3 i = 1#1

theorem hcond0_0 : ∀ t : Fin cfg0.N, cond0_0 (grid0.coords t) ↔ t.val < 10 :=
  (by decide +kernel : ∀ t : Fin grid0.N, cond0_0 (grid0.coords t) ↔ t.val < 10)
theorem hcond0_1 : ∀ t : Fin cfg0.N, cond0_1 (grid0.coords t) ↔ t.val = 10 :=
  (by decide +kernel : ∀ t : Fin grid0.N, cond0_1 (grid0.coords t) ↔ t.val = 10)
theorem hcond0_2 : ∀ t : Fin cfg0.N, cond0_2 (grid0.coords t) ↔ 10 ≤ t.val :=
  (by decide +kernel : ∀ t : Fin grid0.N, cond0_2 (grid0.coords t) ↔ 10 ≤ t.val)

/-- The sweep at point `t` stores chunk `t` of the long scratch: rows from `10000 t`. -/
theorem off1_eq : ∀ t : Fin cfg0.N, t.val < 10 → k0_off1 (grid0.coords t) = ![10000 * t.val, 0] :=
  (by decide +kernel : ∀ t : Fin grid0.N, t.val < 10 → k0_off1 (grid0.coords t) = ![10000 * t.val, 0])
/-- and row `t` of the two ten-row scratch arrays. -/
theorem off2_eq : ∀ t : Fin cfg0.N, t.val < 10 → k0_off2 (grid0.coords t) = ![t.val, 0] :=
  (by decide +kernel : ∀ t : Fin grid0.N, t.val < 10 → k0_off2 (grid0.coords t) = ![t.val, 0])
/-- The rescaling at point `t` loads chunk `t - 10` of the long scratch -/
theorem off3_eq : ∀ t : Fin cfg0.N, 10 ≤ t.val → k0_off3 (grid0.coords t) = ![10000 * (t.val - 10), 0] :=
  (by decide +kernel : ∀ t : Fin grid0.N, 10 ≤ t.val → k0_off3 (grid0.coords t) = ![10000 * (t.val - 10), 0])
/-- and row `t - 10` of the scales. -/
theorem off4_eq : ∀ t : Fin cfg0.N, 10 ≤ t.val → k0_off4 (grid0.coords t) = ![t.val - 10, 0] :=
  (by decide +kernel : ∀ t : Fin grid0.N, 10 ≤ t.val → k0_off4 (grid0.coords t) = ![t.val - 10, 0])

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- During the sweep the result window is idle and not written back. -/
theorem idleAt0_2 : ∀ t : Fin cfg0.N, t.val < 10 → cfg0.idle 2 (grid0.coords t) = true := by decide +kernel
theorem noFlush0_2 : ∀ t : Fin cfg0.N, t.val < 10 → (cfg0.win 2).flush t = false := by decide +kernel
/-- During the rescaling it is live and written back at every point. -/
theorem liveAt0_2 : ∀ t : Fin cfg0.N, 10 ≤ t.val → cfg0.idle 2 (grid0.coords t) = false := by decide +kernel
theorem flush0_2 : ∀ t : Fin cfg0.N, 10 ≤ t.val → (cfg0.win 2).flush t = true := by decide +kernel
/-- The block the result window writes back at point `t` of the rescaling is block `t - 10`. -/
theorem index0_2 : ∀ t : Fin cfg0.N, 10 ≤ t.val → win0_2.index t = ![t.val - 10, 0] :=
  (by decide +kernel : ∀ t : Fin grid0.N, 10 ≤ t.val → win0_2.index t = ![t.val - 10, 0])
/-- The block the operand windows hold at point `t` of the sweep is block `t`. -/
theorem index0_0 : ∀ t : Fin cfg0.N, t.val < 10 → win0_0.index t = ![t.val, 0] :=
  (by decide +kernel : ∀ t : Fin grid0.N, t.val < 10 → win0_0.index t = ![t.val, 0])
theorem index0_1 : ∀ t : Fin cfg0.N, t.val < 10 → win0_1.index t = ![t.val, 0] :=
  (by decide +kernel : ∀ t : Fin grid0.N, t.val < 10 → win0_1.index t = ![t.val, 0])

end Cert.KernelIdeal.Hand

end
-- ==== Proof.KDefs.lean ====
/-
  What the kernel computes, as functions of its two whole (transposed) operand arrays: the sweep over the
  first ten grid points leaves, per chunk of 10000 rows, the exponentials of the chunk's entries less the
  chunk's column maxima, those maxima, and the column sums of the exponentials; the eleventh point turns
  maxima and sums into one scale per chunk and column; the last ten points multiply each chunk of
  exponentials by its scale row.
-/
import proofs.«166809_g81492709474519_cont_9to1c4b_556_13_alg».proof.Proof.Gen.KernelIdeal.Skeleton
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

/-- Row `10000 * i + r` of the long array, as a row index. -/
def rowOf (i : Fin 10) (r : Fin 10000) : Fin 100000 := ⟨10000 * i.val + r.val, by have := i.isLt; have := r.isLt; omega⟩

/-- Rows `[10000 i, 10000 i + 10000)` of a 100000-row array: chunk `i`. -/
def chunk {e : EltTy} (X : Vec F S100000x128 e) (i : Fin 10) : Vec F S10000x128 e :=
  fun y => X (ix2 (rowOf i ⟨(y 0).val, idx2_lt0 y⟩) ⟨(y 1).val, idx2_lt1 y⟩)

/-- Row `i` of a ten-row array, as a one-row array. -/
def row10 {e : EltTy} (M : Vec F S10x128 e) (i : Fin 10) : Vec F S1x128 e :=
  fun y => M (ix2 i ⟨(y 1).val, idx2_lt1 y⟩)

/-- Chunk `i`'s exponentials (entries less the chunk's column maxima), as stored in the long scratch. -/
def Epay (X0 X1 : Vec F S100000x128 .f32) (i : Fin 10) : Vec F S10000x128 .bf16 :=
  k0_pay4 (chunk X0 i) (chunk X1 i)

/-- The ten rows of chunk maxima. -/
def MM (X0 X1 : Vec F S100000x128 .f32) : Vec F S10x128 .f32 :=
  fun j => k0_pay5 (chunk X0 ⟨(j 0).val, idx2_lt0 j⟩) (chunk X1 ⟨(j 0).val, idx2_lt0 j⟩) (ix2 (0 : Fin 1) ⟨(j 1).val, idx2_lt1 j⟩)

/-- The ten rows of chunk sums of exponentials. -/
def PP (X0 X1 : Vec F S100000x128 .f32) : Vec F S10x128 .f32 :=
  fun j => k0_pay6 (chunk X0 ⟨(j 0).val, idx2_lt0 j⟩) (chunk X1 ⟨(j 0).val, idx2_lt0 j⟩) (ix2 (0 : Fin 1) ⟨(j 1).val, idx2_lt1 j⟩)

/-- The ten rows of scales. -/
def FF (X0 X1 : Vec F S100000x128 .f32) : Vec F S10x128 .f32 :=
  k0_pay7 (MM X0 X1) (PP X0 X1)

/-- Output block `i`: chunk `i`'s exponentials times scale row `i`. -/
def OUTB (X0 X1 : Vec F S100000x128 .f32) (i : Fin 10) : Vec F S10000x128 .f32 :=
  k0_pay8 (Epay X0 X1 i) (row10 (FF X0 X1) i)

/-- The whole result array (in the kernel's transposed layout): row `r` lies in block `r / 10000`. -/
def KOUT (X0 X1 : Vec F S100000x128 .f32) : Vec F S100000x128 .f32 :=
  fun y => OUTB X0 X1 ⟨(y 0).val / 10000, by have := idx2_lt0 y; omega⟩
    (ix2 (⟨(y 0).val % 10000, Nat.mod_lt _ (by decide)⟩ : Fin 10000) ⟨(y 1).val, idx2_lt1 y⟩)

end Cert.KernelIdeal.Hand

end
-- ==== Proof.KI.Data.lean ====
/-
  The proof data of the one pipeline: what the three scratch-carried quantities hold before each grid point
  (chunks of exponentials, rows of chunk maxima and chunk sums filled in during the first ten points; the scales
  from the eleventh on), and what the body leaves in each window's staging buffer.
-/
import proofs.«166809_g81492709474519_cont_9to1c4b_556_13_alg».proof.Proof.KI.Cases
import proofs.«166809_g81492709474519_cont_9to1c4b_556_13_alg».proof.Proof.KDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The two operand arrays as the region finds them: the transposed arguments. -/
abbrev xarr0 (c : Dev nD) : Vec F S100000x128 .f32 := V m c main_v0
abbrev xarr1 (c : Dev nD) : Vec F S100000x128 .f32 := V m c main_v1

/-- The scratch operands as memrefs. -/
abbrev scM0 : Memref sig .tc .vmem S100000x128 .bf16 := Memref.whole cc0_scratch0
abbrev scM1 : Memref sig .tc .vmem S10x128 .f32 := Memref.whole cc0_scratch1
abbrev scM2 : Memref sig .tc .vmem S10x128 .f32 := Memref.whole cc0_scratch2
abbrev scM3 : Memref sig .tc .vmem S10x128 .f32 := Memref.whole cc0_scratch3

/-- What the scratch arrays hold before point `n`: the chunks and rows of the points below `n` (at most ten) are
    filled in; from point eleven on the scales are there. Rows not yet written are not described. -/
def Inv (c : Dev nD) (n : ℕ) (E : Vec F S100000x128 .bf16) (Mv Pv Fv : Vec F S10x128 .f32) : Prop :=
  (∀ i : Fin 10, i.val < n → ∀ (r : Fin 10000) (b : Fin 128),
      E (ix2 (rowOf i r) b) = Epay (xarr0 m c) (xarr1 m c) i (ix2 r b))
  ∧ (∀ i : Fin 10, i.val < n → ∀ b : Fin 128, Mv (ix2 i b) = MM (xarr0 m c) (xarr1 m c) (ix2 i b))
  ∧ (∀ i : Fin 10, i.val < n → ∀ b : Fin 128, Pv (ix2 i b) = PP (xarr0 m c) (xarr1 m c) (ix2 i b))
  ∧ (11 ≤ n → Fv = FF (xarr0 m c) (xarr1 m c))

/-- The region invariant before point `n`: the four scratch arrays at contents satisfying `Inv`, the generator
    register at some state. -/
def PhiS (c : Dev nD) (n : ℕ) : sProp 𝕄 :=
  iprop(∃ (E : Vec F S100000x128 .bf16) (Mv Pv Fv : Vec F S10x128 .f32), ⌜Inv m c n E Mv Pv Fv⌝
    ∗ owns (c : Thread nD τ) scM0 fullShare E ∗ owns (c : Thread nD τ) scM1 fullShare Mv
    ∗ owns (c : Thread nD τ) scM2 fullShare Pv ∗ owns (c : Thread nD τ) scM3 fullShare Fv ∗ (∃ r, prngReg c r))

/-- The output block of point `t` of the rescaling (`t - 10`; the expression is total in `t`, and read only
    where `10 ≤ t`). -/
def outIdx (t : Fin cfg0.N) : Fin 10 := ⟨(t.val - 10) % 10, Nat.mod_lt _ (by decide)⟩

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => OUTB (xarr0 m c) (xarr1 m c) (outIdx t)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = OUTB (xarr0 m c) (xarr1 m c) (outIdx t) := by dsimp only [dats]

theorem Phi_eq (c : Dev nD) (t : Fin (cfg0.N + 1)) : (dats m 0 c).Φ t = PhiS m c t.val := by dsimp only [dats]

/-- Each operand's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.KernelIdeal.Hand

end
-- ==== Proof.KI.Runs.lean ====
/-
  The kernel body's three control cases as triples over any whole memrefs: what each case reads and what it
  leaves. The sweep overwrites one chunk of the long scratch and one row of each of the two ten-row scratch
  arrays and leaves every other row as it was; the combination overwrites the scales whole; the rescaling
  fills the result's buffer with a chunk of the long scratch times a row of the scales.
-/
import proofs.«166809_g81492709474519_cont_9to1c4b_556_13_alg».proof.Proof.KI.Cases
import Idealize.ShloMosaic.Lib.WritesUnit
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- Array `E'` is array `E` with the `W` rows from row `o` replaced by the rows of `w`. -/
def RowsUpd {n W : ℕ} {e : EltTy} (o : ℕ) (E E' : Vec F (⟨2, ![n, 128]⟩ : Shape) e) (w : Vec F (⟨2, ![W, 128]⟩ : Shape) e) : Prop :=
  (∀ (r : Fin W) (b : Fin 128) (h : o + r.val < n), E' (ix2 ⟨o + r.val, h⟩ b) = w (ix2 r b))
    ∧ ∀ y : (⟨2, ![n, 128]⟩ : Shape).Idx, ((y 0).val < o ∨ o + W ≤ (y 0).val) → E' y = E y

/-- The whole-buffer rectangle's offsets are zero. -/
theorem off0 : (![0, 0] : Fin 2 → ℕ) = fun _ => 0 := funext fun a => by fin_cases a <;> rfl

/-- What one store of whole rows `[o, o + W)` leaves, read through the memref, is the rows' update. -/
theorem rowsUpd_of_write {n W : ℕ} {e : EltTy} {κ : Kind} {sp : Space} (v : View sig κ sp (⟨2, ![n, 128]⟩ : Shape) e)
    (f : v.ty.Contents (Elt F)) {off : Fin 2 → ℕ} (o : ℕ) (hoff : off = ![o, 0])
    (inb : ∀ a : Fin 2, off a + (![W, 128] : Fin 2 → ℕ) a ≤ (![n, 128] : Fin 2 → ℕ) a)
    (w : Vec F (⟨2, ![W, 128]⟩ : Shape) e) :
    RowsUpd (F := F) o (v.read (Elt F) f)
      (v.read (Elt F) (v.writes (Elt F) f [⟨Rect.unit (s := ⟨2, ![n, 128]⟩) off ![W, 128] inb, w⟩])) w := by
  refine ⟨fun r b h => ?_, fun y hy => ?_⟩
  · exact View.read_writes_cons_rows_of_mem v f inb w [] (ix2 ⟨o + r.val, h⟩ b) (ix2 r b) hoff rfl rfl
  · exact View.read_writes_cons_rows_of_not_mem (W := W) v f inb w [] y hoff rfl hy

section Runs

variable (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S100000x128 .bf16) (harg4 : arg4.IsWhole) (arg5 : Memref sig .tc .vmem S10x128 .f32) (harg5 : arg5.IsWhole) (arg6 : Memref sig .tc .vmem S10x128 .f32) (harg6 : arg6.IsWhole) (arg7 : Memref sig .tc .vmem S10x128 .f32) (harg7 : arg7.IsWhole)

set_option maxHeartbeats 400000 in
/-- THE SWEEP (one of the first ten points): from the two operand blocks `x0`, `x1` it stores the chunk's exponentials
    into rows `[o1, o1 + 10000)` of the long scratch and the chunk's maxima and sums into row `o2` of the two ten-row
    arrays; every other row keeps its contents. -/
theorem runA (hc0 : cond0_0 i) (hc1 : ¬cond0_1 i) (hc2 : ¬cond0_2 i) (o1 o2 : ℕ)
    (hoff1 : k0_off1 i = ![o1, 0]) (hoff2 : k0_off2 i = ![o2, 0])
    (x0 x1 : Vec F S10000x128 .f32) (E : Vec F S100000x128 .bf16) (Mv Pv : Vec F S10x128 .f32)
    (Eset : Set ℕ) (K : PUnit → sProp 𝕄) :
    iprop(owns (c : Thread nD τ) arg1 fullShare x0 ∗ owns (c : Thread nD τ) arg2 fullShare x1
        ∗ owns (c : Thread nD τ) arg4 fullShare E ∗ owns (c : Thread nD τ) arg5 fullShare Mv ∗ owns (c : Thread nD τ) arg6 fullShare Pv
        ∗ (iprop(owns (c : Thread nD τ) arg1 fullShare x0 ∗ owns (c : Thread nD τ) arg2 fullShare x1
            ∗ (∃ E', ⌜RowsUpd (F := F) o1 E E' (k0_pay4 x0 x1)⌝ ∗ owns (c : Thread nD τ) arg4 fullShare E')
            ∗ (∃ M', ⌜RowsUpd (F := F) o2 Mv M' (k0_pay5 x0 x1)⌝ ∗ owns (c : Thread nD τ) arg5 fullShare M')
            ∗ (∃ P', ⌜RowsUpd (F := F) o2 Pv P' (k0_pay6 x0 x1)⌝ ∗ owns (c : Thread nD τ) arg6 fullShare P')) -∗ K ⟨⟩))
      ⊢ wp frame (wpE (defs₀ (F := F)) Variants.none c none) Eset (cc0_body i arg1 harg1 arg2 harg2 arg3 harg3 arg4 harg4 arg5 harg5 arg6 harg6 arg7 harg7) K := by
  simp only [cc0_body_eq_skeleton]; unfold cc0_body_skel
  unfold owns
  iintro ⟨⟨%f0, %hf0, H0⟩, ⟨%f1, %hf1, H1⟩, ⟨%fE, %hfE, HE⟩, ⟨%fM, %hfM, HM⟩, ⟨%fP, %hfP, HP⟩, Hk⟩
  obtain rfl := harg1.eq_unread hf0; obtain rfl := harg2.eq_unread hf1
  subst hfE hfM hfP
  sl_exec (disch := first | exact hc0 | exact hc1 | exact hc2)
  sl_step
  have e0 : View.readAt (Elt F) arg1.view (Rect.unit ![0, 0] S10000x128.size inb_S10000x128_S10000x128_0_0).toLoadRect (harg1.unread x0) = x0 := by
    rw [View.readAt_eq_ld, harg1.read_unread]; exact View.ld_unit_zero off0 _ _
  have e1 : View.readAt (Elt F) arg2.view (Rect.unit ![0, 0] S10000x128.size inb_S10000x128_S10000x128_0_0).toLoadRect (harg2.unread x1) = x1 := by
    rw [View.readAt_eq_ld, harg2.read_unread]; exact View.ld_unit_zero off0 _ _
  rw [e0, e1]
  have hE := rowsUpd_of_write arg4.view fE o1 hoff1 (k0_off1_inb i hc0) (k0_pay4 x0 x1)
  have hM := rowsUpd_of_write arg5.view fM o2 hoff2 (k0_off2_inb i hc0) (k0_pay5 x0 x1)
  have hP := rowsUpd_of_write arg6.view fP o2 hoff2 (k0_off2_inb i hc0) (k0_pay6 x0 x1)
  iapply Hk
  isplitl [H0]
  · iexists _; isplitr; · ipureintro; exact harg1.read_unread _
    iexact H0
  isplitl [H1]
  · iexists _; isplitr; · ipureintro; exact harg2.read_unread _
    iexact H1
  isplitl [HE]
  · iexists _; isplitr; · ipureintro; exact hE
    iexists _; isplitr; · ipureintro; rfl
    iexact HE
  isplitl [HM]
  · iexists _; isplitr; · ipureintro; exact hM
    iexists _; isplitr; · ipureintro; rfl
    iexact HM
  · iexists _; isplitr; · ipureintro; exact hP
    iexists _; isplitr; · ipureintro; rfl
    iexact HP

end Runs

end Cert.KernelIdeal.Hand

end
-- ==== Proof.KI.RunB.lean ====
/-
  The kernel body at the eleventh grid point: the combination (maxima and sums to scales) followed by the first
  rescaling.
-/
import proofs.«166809_g81492709474519_cont_9to1c4b_556_13_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- What one whole-array store leaves, read through the memref, is the stored array. -/
theorem runB_read_store_whole {n m : ℕ} {e : EltTy} {κ : Kind} {sp : Space} (v : View sig κ sp (⟨2, ![n, m]⟩ : Shape) e)
    (f : v.ty.Contents (Elt F))
    (inb : ∀ a : Fin 2, (![0, 0] : Fin 2 → ℕ) a + (⟨2, ![n, m]⟩ : Shape).size a ≤ (⟨2, ![n, m]⟩ : Shape).size a)
    (w : Vec F (⟨2, ![n, m]⟩ : Shape) e) :
    v.read (Elt F) (v.writes (Elt F) f [⟨Rect.unit (s := ⟨2, ![n, m]⟩) ![0, 0] (⟨2, ![n, m]⟩ : Shape).size inb, w⟩]) = w := by
  rw [View.read_writes_eq_canon _ _ _ (fun y => ⟨_, List.mem_singleton_self _, View.mem_set_unit_zero off0 inb y⟩)]
  exact View.canon_unit_zero off0 inb w

section Runs

variable (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S100000x128 .bf16) (harg4 : arg4.IsWhole) (arg5 : Memref sig .tc .vmem S10x128 .f32) (harg5 : arg5.IsWhole) (arg6 : Memref sig .tc .vmem S10x128 .f32) (harg6 : arg6.IsWhole) (arg7 : Memref sig .tc .vmem S10x128 .f32) (harg7 : arg7.IsWhole)

set_option maxHeartbeats 400000 in
/-- THE COMBINATION AND FIRST RESCALING (the eleventh point): from the ten rows of maxima `Mv` and sums `Pv` it stores the
    scales whole, then fills the result's buffer with the chunk of the long scratch at the point's offset times the
    row of the scales at the point's offset. The long scratch and the two ten-row arrays keep their contents. -/
theorem runB (hc0 : ¬cond0_0 i) (hc1 : cond0_1 i) (hc2 : cond0_2 i)
    (E : Vec F S100000x128 .bf16) (Mv Pv : Vec F S10x128 .f32)
    (Eset : Set ℕ) (K : PUnit → sProp 𝕄) :
    iprop(owns (c : Thread nD τ) arg4 fullShare E ∗ owns (c : Thread nD τ) arg5 fullShare Mv ∗ owns (c : Thread nD τ) arg6 fullShare Pv
        ∗ (∃ d, owns (c : Thread nD τ) arg7 fullShare d) ∗ (∃ d, owns (c : Thread nD τ) arg3 fullShare d)
        ∗ (iprop(owns (c : Thread nD τ) arg4 fullShare E ∗ owns (c : Thread nD τ) arg5 fullShare Mv ∗ owns (c : Thread nD τ) arg6 fullShare Pv
            ∗ owns (c : Thread nD τ) arg7 fullShare (k0_pay7 Mv Pv)
            ∗ owns (c : Thread nD τ) arg3 fullShare
                (k0_pay8 (View.ld E (Rect.unit (s := S100000x128) (k0_off3 i) S10000x128.size (k0_off3_inb i hc2)))
                  (View.ld (k0_pay7 Mv Pv) (Rect.unit (s := S10x128) (k0_off4 i) S1x128.size (k0_off4_inb i hc2))))) -∗ K ⟨⟩))
      ⊢ wp frame (wpE (defs₀ (F := F)) Variants.none c none) Eset (cc0_body i arg1 harg1 arg2 harg2 arg3 harg3 arg4 harg4 arg5 harg5 arg6 harg6 arg7 harg7) K := by
  simp only [cc0_body_eq_skeleton]; unfold cc0_body_skel
  unfold owns
  iintro ⟨⟨%fE, %hfE, HE⟩, ⟨%fM, %hfM, HM⟩, ⟨%fP, %hfP, HP⟩, ⟨%d7, %f7, -, H7⟩, ⟨%d3, %f3, -, H3⟩, Hk⟩
  subst hfE hfM hfP
  obtain ⟨o, ho, hob⟩ : ∃ o, k0_off4 i = ![o, 0] ∧ o + 1 ≤ 10 :=
    ⟨(k0_off4 i) 0, funext fun a => by fin_cases a <;> rfl, k0_off4_inb i hc2 0⟩
  letI : ClosedOff (k0_off4 i) := ⟨![o, 0], ho⟩
  sl_exec (disch := first | exact hc0 | exact hc1 | exact hc2)
  sl_step
  sl_unfold_run_names
  have eM : View.readAt (Elt F) arg5.view (Rect.unit ![0, 0] S10x128.size inb_S10x128_S10x128_0_0).toLoadRect fM
      = View.read (Elt F) arg5.view fM := by
    rw [View.readAt_eq_ld]; exact View.ld_unit_zero off0 _ _
  have eP : View.readAt (Elt F) arg6.view (Rect.unit ![0, 0] S10x128.size inb_S10x128_S10x128_0_0).toLoadRect fP
      = View.read (Elt F) arg6.view fP := by
    rw [View.readAt_eq_ld]; exact View.ld_unit_zero off0 _ _
  rw [eM, eP]
  have e7 := runB_read_store_whole (F := F) arg7.view arg7.view.junk inb_S10x128_S10x128_0_0
    (k0_pay7 (View.read (Elt F) arg5.view fM) (View.read (Elt F) arg6.view fP))
  have e15 : View.readAt (Elt F) arg7.view (Rect.unit (s := S10x128) (k0_off4 i) S1x128.size (k0_off4_inb i hc2)).toLoadRect
      (arg7.view.writes (Elt F) arg7.view.junk [⟨Rect.unit ![0, 0] S10x128.size inb_S10x128_S10x128_0_0,
        k0_pay7 (View.read (Elt F) arg5.view fM) (View.read (Elt F) arg6.view fP)⟩])
      = View.ld (k0_pay7 (View.read (Elt F) arg5.view fM) (View.read (Elt F) arg6.view fP))
          (Rect.unit (s := S10x128) (k0_off4 i) S1x128.size (k0_off4_inb i hc2)) := by
    rw [View.readAt_eq_ld, e7]
  rw [e15]
  have e3 := runB_read_store_whole (F := F) arg3.view f3 inb_S10000x128_S10000x128_0_0
    (k0_pay8 (View.ld (View.read (Elt F) arg4.view fE) (Rect.unit (s := S100000x128) (k0_off3 i) S10000x128.size (k0_off3_inb i hc2)))
      (View.ld (k0_pay7 (View.read (Elt F) arg5.view fM) (View.read (Elt F) arg6.view fP))
        (Rect.unit (s := S10x128) (k0_off4 i) S1x128.size (k0_off4_inb i hc2))))
  iapply Hk
  isplitl [HE]
  · iexists _; isplitr; · ipureintro; rfl
    iexact HE
  isplitl [HM]
  · iexists _; isplitr; · ipureintro; rfl
    iexact HM
  isplitl [HP]
  · iexists _; isplitr; · ipureintro; rfl
    iexact HP
  isplitl [H7]
  · iexists _; isplitr; · ipureintro; exact e7
    iexact H7
  · iexists _; isplitr; · ipureintro; exact e3
    iexact H3

end Runs

end Cert.KernelIdeal.Hand

end
-- ==== Proof.KI.RunC.lean ====
/-
  The kernel body at the last nine grid points: the rescaling alone.
-/
import proofs.«166809_g81492709474519_cont_9to1c4b_556_13_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section Runs

variable (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S100000x128 .bf16) (harg4 : arg4.IsWhole) (arg5 : Memref sig .tc .vmem S10x128 .f32) (harg5 : arg5.IsWhole) (arg6 : Memref sig .tc .vmem S10x128 .f32) (harg6 : arg6.IsWhole) (arg7 : Memref sig .tc .vmem S10x128 .f32) (harg7 : arg7.IsWhole)

set_option maxHeartbeats 400000 in
/-- THE RESCALING (one of the last nine points): fills the result's buffer with the chunk of the long scratch at the
    point's offset times the row of the scales at the point's offset; both scratch arrays keep their contents. -/
theorem runC (hc0 : ¬cond0_0 i) (hc1 : ¬cond0_1 i) (hc2 : cond0_2 i)
    (E : Vec F S100000x128 .bf16) (Fv : Vec F S10x128 .f32)
    (Eset : Set ℕ) (K : PUnit → sProp 𝕄) :
    iprop(owns (c : Thread nD τ) arg4 fullShare E ∗ owns (c : Thread nD τ) arg7 fullShare Fv ∗ (∃ d, owns (c : Thread nD τ) arg3 fullShare d)
        ∗ (iprop(owns (c : Thread nD τ) arg4 fullShare E ∗ owns (c : Thread nD τ) arg7 fullShare Fv
            ∗ owns (c : Thread nD τ) arg3 fullShare
                (k0_pay8 (View.ld E (Rect.unit (s := S100000x128) (k0_off3 i) S10000x128.size (k0_off3_inb i hc2)))
                  (View.ld Fv (Rect.unit (s := S10x128) (k0_off4 i) S1x128.size (k0_off4_inb i hc2))))) -∗ K ⟨⟩))
      ⊢ wp frame (wpE (defs₀ (F := F)) Variants.none c none) Eset (cc0_body i arg1 harg1 arg2 harg2 arg3 harg3 arg4 harg4 arg5 harg5 arg6 harg6 arg7 harg7) K := by
  simp only [cc0_body_eq_skeleton]; unfold cc0_body_skel
  unfold owns
  iintro ⟨⟨%fE, %hfE, HE⟩, ⟨%fS, %hfS, HS⟩, ⟨%d, %fR, -, HR⟩, Hk⟩
  subst hfE hfS
  sl_exec (disch := first | exact hc0 | exact hc1 | exact hc2)
  sl_step
  have hW : ∀ P : Vec F S10000x128 .f32,
      View.read (Elt F) arg3.view
        (arg3.view.writes (Elt F) fR
          [⟨Rect.unit (s := S10000x128) ![0, 0] S10000x128.size inb_S10000x128_S10000x128_0_0, P⟩]) = P := by
    intro P
    refine (View.read_writes_eq_canon _ _ _ (fun y => ⟨_, List.mem_singleton_self _,
      View.mem_set_unit_zero off0 inb_S10000x128_S10000x128_0_0 y⟩)).trans ?_
    exact View.canon_unit_zero off0 inb_S10000x128_S10000x128_0_0 P
  have hR := hW (k0_pay8
    (View.readAt (Elt F) arg4.view (Rect.unit (s := S100000x128) (k0_off3 i) S10000x128.size (k0_off3_inb i hc2)).toLoadRect fE)
    (View.readAt (Elt F) arg7.view (Rect.unit (s := S10x128) (k0_off4 i) S1x128.size (k0_off4_inb i hc2)).toLoadRect fS))
  iapply Hk
  isplitl [HE]
  · iexists _; isplitr; · ipureintro; rfl
    iexact HE
  isplitl [HS]
  · iexists _; isplitr; · ipureintro; rfl
    iexact HS
  · iexists _; isplitr; · ipureintro; exact hR
    iexact HR

end Runs

end Cert.KernelIdeal.Hand

end
-- ==== Proof.KI.InvStep.lean ====
/-
  How the invariant on the scratch arrays moves from one grid point to the next, and what the rescaling reads: pure
  facts about arrays, rows and chunks.
-/
import proofs.«166809_g81492709474519_cont_9to1c4b_556_13_alg».proof.Proof.KI.Data
import proofs.«166809_g81492709474519_cont_9to1c4b_556_13_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- During the sweep the first operand's block at point `t` is chunk `t` of the first operand array. -/
theorem iblk0_eq (c : Dev nD) (t : Fin cfg0.N) (ht : t.val < 10) :
    (iblk m c 0 t : Vec F S10000x128 .f32) = chunk (xarr0 m c) ⟨t.val, ht⟩ := by
  funext y
  show V m c main_v0 (((cfg0.win 0).blk t).view.emb y) = V m c main_v0 _
  refine congrArg (V m c main_v0) ?_
  funext a
  refine Fin.ext ?_
  match a with
  | ⟨0, _⟩ =>
    show win0_0.index t 0 * 10000 + 1 * (y 0).val = 10000 * t.val + (y 0).val
    rw [index0_0 t ht]
    show t.val * 10000 + 1 * (y 0).val = 10000 * t.val + (y 0).val
    omega
  | ⟨1, _⟩ =>
    show win0_0.index t 1 * 128 + 1 * (y 1).val = (y 1).val
    rw [index0_0 t ht]
    show 0 * 128 + 1 * (y 1).val = (y 1).val
    omega

/-- During the sweep the second operand's block at point `t` is chunk `t` of the second operand array. -/
theorem iblk1_eq (c : Dev nD) (t : Fin cfg0.N) (ht : t.val < 10) :
    (iblk m c 1 t : Vec F S10000x128 .f32) = chunk (xarr1 m c) ⟨t.val, ht⟩ := by
  funext y
  show V m c main_v1 (((cfg0.win 1).blk t).view.emb y) = V m c main_v1 _
  refine congrArg (V m c main_v1) ?_
  funext a
  refine Fin.ext ?_
  match a with
  | ⟨0, _⟩ =>
    show win0_1.index t 0 * 10000 + 1 * (y 0).val = 10000 * t.val + (y 0).val
    rw [index0_1 t ht]
    show t.val * 10000 + 1 * (y 0).val = 10000 * t.val + (y 0).val
    omega
  | ⟨1, _⟩ =>
    show win0_1.index t 1 * 128 + 1 * (y 1).val = (y 1).val
    rw [index0_1 t ht]
    show 0 * 128 + 1 * (y 1).val = (y 1).val
    omega

/-- THE SWEEP'S STEP: with chunk `t` and row `t` written from the point's operand blocks, the invariant holds one point
    further. -/
theorem inv_sweep (c : Dev nD) (t : Fin cfg0.N) (ht : t.val < 10)
    {E E' : Vec F S100000x128 .bf16} {Mv M' Pv P' Fv : Vec F S10x128 .f32}
    (h : Inv m c t.val E Mv Pv Fv)
    (hE : RowsUpd (F := F) (10000 * t.val) E E' (k0_pay4 (iblk m c 0 t) (iblk m c 1 t)))
    (hM : RowsUpd (F := F) t.val Mv M' (k0_pay5 (iblk m c 0 t) (iblk m c 1 t)))
    (hP : RowsUpd (F := F) t.val Pv P' (k0_pay6 (iblk m c 0 t) (iblk m c 1 t))) :
    Inv m c (t.val + 1) E' M' P' Fv := by
  rw [iblk0_eq m c t ht, iblk1_eq m c t ht] at hE hM hP
  refine ⟨fun i hi r b => ?_, fun i hi b => ?_, fun i hi b => ?_, fun h11 => absurd h11 (by omega)⟩
  · by_cases hlt : i.val < t.val
    · have hmiss := hE.2 (ix2 (rowOf i r) b) (Or.inl (by
        show 10000 * i.val + r.val < 10000 * t.val
        have := r.isLt
        omega))
      rw [hmiss]
      exact h.1 i hlt r b
    · have hi' : i = ⟨t.val, ht⟩ := Fin.ext (by show i.val = t.val; omega)
      subst hi'
      exact hE.1 r b (by have := r.isLt; omega)
  · by_cases hlt : i.val < t.val
    · have hmiss := hM.2 (ix2 i b) (Or.inl (by show i.val < t.val; exact hlt))
      rw [hmiss]
      exact h.2.1 i hlt b
    · have hi' : i = ⟨t.val, ht⟩ := Fin.ext (by show i.val = t.val; omega)
      subst hi'
      exact hM.1 (0 : Fin 1) b (by show t.val + 0 < 10; omega)
  · by_cases hlt : i.val < t.val
    · have hmiss := hP.2 (ix2 i b) (Or.inl (by show i.val < t.val; exact hlt))
      rw [hmiss]
      exact h.2.2.1 i hlt b
    · have hi' : i = ⟨t.val, ht⟩ := Fin.ext (by show i.val = t.val; omega)
      subst hi'
      exact hP.1 (0 : Fin 1) b (by show t.val + 0 < 10; omega)

/-- THE COMBINATION'S STEP: with all ten rows of maxima and sums in place, the scales computed from them are the
    scales of the operand arrays. -/
theorem inv_combine (c : Dev nD) {E : Vec F S100000x128 .bf16} {Mv Pv Fv : Vec F S10x128 .f32}
    (h : Inv m c 10 E Mv Pv Fv) : Inv m c 11 E Mv Pv (k0_pay7 Mv Pv) := by
  refine ⟨fun i _ => h.1 i i.isLt, fun i _ => h.2.1 i i.isLt, fun i _ => h.2.2.1 i i.isLt, fun _ => ?_⟩
  have hMv : Mv = MM (xarr0 m c) (xarr1 m c) := by
    funext j
    obtain ⟨i, b, rfl⟩ : ∃ (i : Fin 10) (b : Fin 128), j = ix2 i b := ⟨j 0, j 1, eq_ix2 j⟩
    exact h.2.1 i i.isLt b
  have hPv : Pv = PP (xarr0 m c) (xarr1 m c) := by
    funext j
    obtain ⟨i, b, rfl⟩ : ∃ (i : Fin 10) (b : Fin 128), j = ix2 i b := ⟨j 0, j 1, eq_ix2 j⟩
    exact h.2.2.1 i i.isLt b
  rw [hMv, hPv]
  rfl

/-- Past the eleventh point nothing changes. -/
theorem inv_mono (c : Dev nD) {n : ℕ} (hn : 11 ≤ n) {E : Vec F S100000x128 .bf16} {Mv Pv Fv : Vec F S10x128 .f32}
    (h : Inv m c n E Mv Pv Fv) : Inv m c (n + 1) E Mv Pv Fv := by
  exact ⟨fun i _ => h.1 i (by have := i.isLt; omega), fun i _ => h.2.1 i (by have := i.isLt; omega),
    fun i _ => h.2.2.1 i (by have := i.isLt; omega), fun _ => h.2.2.2 hn⟩

/-- WHAT THE RESCALING LEAVES at point `t` (one of the last ten): with the chunks and the scales in place, the chunk of
    the long scratch at the point's offset times the row of the scales at the point's offset is the output block of the
    point. -/
theorem out_rescale (c : Dev nD) (t : Fin cfg0.N) (ht : 10 ≤ t.val) (hc2 : cond0_2 (grid0.coords t))
    {E : Vec F S100000x128 .bf16} {Mv Pv Fv : Vec F S10x128 .f32}
    (h : Inv m c 11 E Mv Pv Fv) :
    k0_pay8 (View.ld E (Rect.unit (s := S100000x128) (k0_off3 (grid0.coords t)) S10000x128.size (k0_off3_inb (grid0.coords t) hc2)))
        (View.ld Fv (Rect.unit (s := S10x128) (k0_off4 (grid0.coords t)) S1x128.size (k0_off4_inb (grid0.coords t) hc2)))
      = OUTB (xarr0 m c) (xarr1 m c) (outIdx t) := by
  have hN : grid0.N = 20 := N_0
  have htlt : t.val < 20 := by
    have h2 : t.val < grid0.N := t.isLt
    omega
  have ho : (outIdx t).val = t.val - 10 := by
    show (t.val - 10) % 10 = t.val - 10
    omega
  have e1 : (View.ld E (Rect.unit (s := S100000x128) (k0_off3 (grid0.coords t)) S10000x128.size
        (k0_off3_inb (grid0.coords t) hc2)) : Vec F S10000x128 .bf16)
      = Epay (xarr0 m c) (xarr1 m c) (outIdx t) := by
    funext y
    obtain ⟨r, b, rfl⟩ : ∃ (r : Fin 10000) (b : Fin 128), y = ix2 r b := ⟨y 0, y 1, eq_ix2 y⟩
    have hidx : (Rect.unit (s := S100000x128) (k0_off3 (grid0.coords t)) S10000x128.size
        (k0_off3_inb (grid0.coords t) hc2)).idx (ix2 r b) = ix2 (rowOf (outIdx t) r) b := by
      funext a
      refine Fin.ext ?_
      match a with
      | ⟨0, _⟩ =>
        show k0_off3 (grid0.coords t) 0 + 1 * r.val = 10000 * (outIdx t).val + r.val
        rw [off3_eq t ht, ho]
        show 10000 * (t.val - 10) + 1 * r.val = 10000 * (t.val - 10) + r.val
        omega
      | ⟨1, _⟩ =>
        show k0_off3 (grid0.coords t) 1 + 1 * b.val = b.val
        rw [off3_eq t ht]
        show 0 + 1 * b.val = b.val
        omega
    show E ((Rect.unit (s := S100000x128) (k0_off3 (grid0.coords t)) S10000x128.size
        (k0_off3_inb (grid0.coords t) hc2)).idx (ix2 r b)) = _
    rw [hidx]
    exact h.1 (outIdx t) (by have := (outIdx t).isLt; omega) r b
  have hF : Fv = FF (xarr0 m c) (xarr1 m c) := h.2.2.2 (le_refl 11)
  have e2 : (View.ld Fv (Rect.unit (s := S10x128) (k0_off4 (grid0.coords t)) S1x128.size
        (k0_off4_inb (grid0.coords t) hc2)) : Vec F S1x128 .f32)
      = row10 (FF (xarr0 m c) (xarr1 m c)) (outIdx t) := by
    funext y
    obtain ⟨z, b, rfl⟩ : ∃ (z : Fin 1) (b : Fin 128), y = ix2 z b := ⟨y 0, y 1, eq_ix2 y⟩
    have hidx : (Rect.unit (s := S10x128) (k0_off4 (grid0.coords t)) S1x128.size
        (k0_off4_inb (grid0.coords t) hc2)).idx (ix2 z b) = ix2 (outIdx t) b := by
      funext a
      refine Fin.ext ?_
      match a with
      | ⟨0, _⟩ =>
        show k0_off4 (grid0.coords t) 0 + 1 * z.val = (outIdx t).val
        rw [off4_eq t ht, ho]
        show (t.val - 10) + 1 * z.val = t.val - 10
        have := z.isLt
        omega
      | ⟨1, _⟩ =>
        show k0_off4 (grid0.coords t) 1 + 1 * b.val = b.val
        rw [off4_eq t ht]
        show 0 + 1 * b.val = b.val
        omega
    show Fv ((Rect.unit (s := S10x128) (k0_off4 (grid0.coords t)) S1x128.size
        (k0_off4_inb (grid0.coords t) hc2)).idx (ix2 z b)) = _
    rw [hidx, hF]
    rfl
  unfold OUTB
  exact congrArg₂ (k0_pay8 (F := F)) e1 e2

end Cert.KernelIdeal.Hand

end
-- ==== Proof.KI.Body.lean ====
/-
  The body obligation at every grid point, the launch and the frame. At a point of the sweep the invariant hands the
  body the scratch arrays with the earlier chunks filled in and takes them back with one more chunk; at the eleventh
  point it takes the scales back as well; during the rescaling the scratch arrays pass through unchanged and the
  result's buffer is left at the output block of the point.
-/
import proofs.«166809_g81492709474519_cont_9to1c4b_556_13_alg».proof.Proof.KI.Data
import proofs.«166809_g81492709474519_cont_9to1c4b_556_13_alg».proof.Proof.KI.Runs
import proofs.«166809_g81492709474519_cont_9to1c4b_556_13_alg».proof.Proof.KI.RunB
import proofs.«166809_g81492709474519_cont_9to1c4b_556_13_alg».proof.Proof.KI.RunC
import proofs.«166809_g81492709474519_cont_9to1c4b_556_13_alg».proof.Proof.KI.InvStep

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- Each window's current staging memref at point `t`, spelled as the pipeline passes it, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)

/-- The class invariant with the four scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- From the eleventh point on, what the invariant says at any later point it says at the eleventh. -/
theorem inv_eleven (c : Dev nD) {n : ℕ} (hn : 11 ≤ n) {E : Vec F S100000x128 .bf16} {Mv Pv Fv : Vec F S10x128 .f32}
    (h : Inv m c n E Mv Pv Fv) : Inv m c 11 E Mv Pv Fv :=
  ⟨fun i _ => h.1 i (by have := i.isLt; omega), fun i _ => h.2.1 i (by have := i.isLt; omega),
    fun i _ => h.2.2.1 i (by have := i.isLt; omega), fun _ => h.2.2.2 hn⟩

set_option maxHeartbeats 1600000 in
/-- The body at any point: by the point's control case. During the sweep the invariant's scratch arrays go in and come
    back with the point's chunk and rows written; at the eleventh point the scales are computed and the first output
    block is left in the result's buffer; afterwards the scratch arrays pass through and each point leaves its output
    block. The operands' buffers hold their blocks throughout; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [Phi_eq m c t.castSucc, Phi_eq m c t.succ]
  simp only [Fin.coe_castSucc, Fin.val_succ]
  rw [show (dats m 0 c).leavesExact 0 t = owns (c : Thread nD τ) (ms0_0 t) fullShare ((dats m 0 c).after 0 t) from by
        unfold Dat.leavesExact; rw [liveAt0_0 t], after0_0,
      show (dats m 0 c).leavesExact 1 t = owns (c : Thread nD τ) (ms0_1 t) fullShare ((dats m 0 c).after 1 t) from by
        unfold Dat.leavesExact; rw [liveAt0_1 t], after0_1]
  have hN : t.val < 20 := lt_of_lt_of_eq t.isLt (show cfg0.N = 20 from N_0)
  by_cases h0 : t.val < 10
  · -- the sweep
    have hc0 : cond0_0 (grid0.coords t) := (hcond0_0 t).mpr h0
    have hc1 : ¬cond0_1 (grid0.coords t) := fun h => by have := (hcond0_1 t).mp h; omega
    have hc2 : ¬cond0_2 (grid0.coords t) := fun h => by have := (hcond0_2 t).mp h; omega
    rw [Dat.leavesExact_idle (dats m 0 c) 2 t (idleAt0_2 t h0) (noFlush0_2 t h0)]
    unfold PhiS
    iintro ⟨⟨%E, %Mv, %Pv, %Fv, %hInv, HS0, HS1, HS2, HS3, Hg⟩, Ho, ⟨%d0, H0⟩, ⟨%d1, H1⟩, ⟨%d2, H2⟩⟩
    iapply (runA c (grid0.coords t) (ms0_0 t) (hs0_0 t) (ms0_1 t) (hs0_1 t) (ms0_2 t) (hs0_2 t)
      scM0 (Memref.isWhole_whole _) scM1 (Memref.isWhole_whole _) scM2 (Memref.isWhole_whole _) scM3 (Memref.isWhole_whole _)
      hc0 hc1 hc2 (10000 * t.val) t.val (off1_eq t h0) (off2_eq t h0) (iblk m c 0 t) (iblk m c 1 t) E Mv Pv Set.univ _)
    isplitl [H0]; · iexact H0
    isplitl [H1]; · iexact H1
    isplitl [HS0]; · iexact HS0
    isplitl [HS1]; · iexact HS1
    isplitl [HS2]; · iexact HS2
    iintro ⟨H0, H1, ⟨%E', %hE', HS0⟩, ⟨%M', %hM', HS1⟩, ⟨%P', %hP', HS2⟩⟩
    isplitl [HS0 HS1 HS2 HS3 Hg]
    · iexists E', M', P', Fv
      isplitr; · ipureintro; exact inv_sweep m c t h0 hInv hE' hM' hP'
      isplitl [HS0]; · iexact HS0
      isplitl [HS1]; · iexact HS1
      isplitl [HS2]; · iexact HS2
      isplitl [HS3]; · iexact HS3
      iexact Hg
    isplitl [Ho]; · iexact Ho
    isplitl [H0]; · iexact H0
    isplitl [H1]; · iexact H1
    iexists d2; iexact H2
  · have hc0 : ¬cond0_0 (grid0.coords t) := fun h => h0 ((hcond0_0 t).mp h)
    have hc2 : cond0_2 (grid0.coords t) := (hcond0_2 t).mpr (by omega)
    rw [show (dats m 0 c).leavesExact 2 t = owns (c : Thread nD τ) (ms0_2 t) fullShare ((dats m 0 c).after 2 t) from by
          unfold Dat.leavesExact; rw [liveAt0_2 t (by omega)], after0_2]
    by_cases h1 : t.val = 10
    · -- the combination and the first rescaling
      have hc1 : cond0_1 (grid0.coords t) := (hcond0_1 t).mpr h1
      unfold PhiS
      iintro ⟨⟨%E, %Mv, %Pv, %Fv, %hInv, HS0, HS1, HS2, HS3, Hg⟩, Ho, ⟨%d0, H0⟩, ⟨%d1, H1⟩, ⟨%d2, H2⟩⟩
      have hInv11 : Inv m c 11 E Mv Pv (k0_pay7 Mv Pv) := inv_combine m c (h1 ▸ hInv)
      have hout := out_rescale m c t (by omega) hc2 hInv11
      iapply (runB c (grid0.coords t) (ms0_0 t) (hs0_0 t) (ms0_1 t) (hs0_1 t) (ms0_2 t) (hs0_2 t)
        scM0 (Memref.isWhole_whole _) scM1 (Memref.isWhole_whole _) scM2 (Memref.isWhole_whole _) scM3 (Memref.isWhole_whole _)
        hc0 hc1 hc2 E Mv Pv Set.univ _)
      isplitl [HS0]; · iexact HS0
      isplitl [HS1]; · iexact HS1
      isplitl [HS2]; · iexact HS2
      isplitl [HS3]; · iexists Fv; iexact HS3
      isplitl [H2]; · iexists _; iexact H2
      iintro ⟨HS0, HS1, HS2, HS3, H2⟩
      isplitl [HS0 HS1 HS2 HS3 Hg]
      · iexists E, Mv, Pv, (k0_pay7 Mv Pv)
        isplitr; · ipureintro; rw [h1]; exact hInv11
        isplitl [HS0]; · iexact HS0
        isplitl [HS1]; · iexact HS1
        isplitl [HS2]; · iexact HS2
        isplitl [HS3]; · iexact HS3
        iexact Hg
      isplitl [Ho]; · iexact Ho
      isplitl [H0]; · iexact H0
      isplitl [H1]; · iexact H1
      rw [← hout]; iexact H2
    · -- the rescaling alone
      have hc1 : ¬cond0_1 (grid0.coords t) := fun h => h1 ((hcond0_1 t).mp h)
      have ht11 : 11 ≤ t.val := by omega
      unfold PhiS
      iintro ⟨⟨%E, %Mv, %Pv, %Fv, %hInv, HS0, HS1, HS2, HS3, Hg⟩, Ho, ⟨%d0, H0⟩, ⟨%d1, H1⟩, ⟨%d2, H2⟩⟩
      have hout := out_rescale m c t (by omega) hc2 (inv_eleven m c ht11 hInv)
      iapply (runC c (grid0.coords t) (ms0_0 t) (hs0_0 t) (ms0_1 t) (hs0_1 t) (ms0_2 t) (hs0_2 t)
        scM0 (Memref.isWhole_whole _) scM1 (Memref.isWhole_whole _) scM2 (Memref.isWhole_whole _) scM3 (Memref.isWhole_whole _)
        hc0 hc1 hc2 E Fv Set.univ _)
      isplitl [HS0]; · iexact HS0
      isplitl [HS3]; · iexact HS3
      isplitl [H2]; · iexists _; iexact H2
      iintro ⟨HS0, HS3, H2⟩
      isplitl [HS0 HS1 HS2 HS3 Hg]
      · iexists E, Mv, Pv, Fv
        isplitr; · ipureintro; exact inv_mono m c ht11 hInv
        isplitl [HS0]; · iexact HS0
        isplitl [HS1]; · iexact HS1
        isplitl [HS2]; · iexact HS2
        isplitl [HS3]; · iexact HS3
        iexact Hg
      isplitl [Ho]; · iexact Ho
      isplitl [H0]; · iexact H0
      isplitl [H1]; · iexact H1
      rw [← hout]; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is filled in yet. -/
theorem hin (c : Dev nD) : Pipeline.ΦA spec0 c ⊢ (dats m 0 c).Φ 0 := by
  rw [Phi_eq, PhiA0_eq]
  unfold PhiS
  iintro ⟨⟨⟨%E, H0⟩, ⟨%Mv, H1⟩, ⟨%Pv, H2⟩, ⟨%Fv, H3⟩⟩, Hg⟩
  iexists E, Mv, Pv, Fv
  isplitr
  · ipureintro
    exact ⟨fun i h => absurd h (Nat.not_lt_zero _), fun i h => absurd h (Nat.not_lt_zero _),
      fun i h => absurd h (Nat.not_lt_zero _), fun h => absurd h (by decide)⟩
  isplitl [H0]; · iexact H0
  isplitl [H1]; · iexact H1
  isplitl [H2]; · iexact H2
  isplitl [H3]; · iexact H3
  iexact Hg

/-- After the last point the invariant gives the class's back: what the scratch arrays hold is forgotten. -/
theorem hout (c : Dev nD) : (dats m 0 c).Φ (Fin.last cfg0.N) ⊢ Pipeline.ΦA spec0 c := by
  rw [Phi_eq, PhiA0_eq]
  unfold PhiS
  iintro ⟨%E, %Mv, %Pv, %Fv, -, H0, H1, H2, H3, Hg⟩
  isplitr [Hg]
  · isplitl [H0]; · iexists E; iexact H0
    isplitl [H1]; · iexists Mv; iexact H1
    isplitl [H2]; · iexists Pv; iexact H2
    iexists Fv; iexact H3
  iexact Hg

set_option backward.isDefEq.respectTransparency.types false in
/-- At the compiled mesh, for any values, from any memory with zero counters: every weakly fair execution of @main
    terminates, and every final state has every array of the pipeline at what the write-backs leave and every other
    unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, nothing faults, and the two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.Final.lean ====
/-
  From the frame run to the result array: the ten write-backs of the rescaling tile the result's array, each
  writing its output block, so the array ends at the whole-array function `KOUT` of the two operand arrays; the
  operands are the transposed arguments and the program's result is the transposed array.
-/
import proofs.«166809_g81492709474519_cont_9to1c4b_556_13_alg».proof.Proof.KI.Body
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The first operand array is the first argument transposed. -/
theorem xarr0_apply (c : Dev nD) (v : Fin 100000) (b : Fin 128) :
    xarr0 m c (ix2 v b) = (m ((c.tc : Thread nD τ).loc main_arg0) : Vec F S128x100000 .f32) (ix2 b v) := by
  have e : (V m c main_v0 : Vec F S100000x128 .f32)
      = transpose S100000x128 [1, 0] (m ((c.tc : Thread nD τ).loc main_arg0) : Vec F S128x100000 .f32) transposes_S128x100000_S100000x128_1_0 := by
    show StableHlo.after hostOps0 (fun b => m (c, b)) (Proc.devRef .tc main_v0) = _
    after_results
  show (V m c main_v0 : Vec F S100000x128 .f32) (ix2 v b) = _
  rw [e]
  exact transpose_ix2_apply _ _ v b

/-- The second operand array is the second argument transposed. -/
theorem xarr1_apply (c : Dev nD) (v : Fin 100000) (b : Fin 128) :
    xarr1 m c (ix2 v b) = (m ((c.tc : Thread nD τ).loc main_arg1) : Vec F S128x100000 .f32) (ix2 b v) := by
  have e : (V m c main_v1 : Vec F S100000x128 .f32)
      = transpose S100000x128 [1, 0] (m ((c.tc : Thread nD τ).loc main_arg1) : Vec F S128x100000 .f32) transposes_S128x100000_S100000x128_1_0 := by
    show StableHlo.after hostOps0 (fun b => m (c, b)) (Proc.devRef .tc main_v1) = _
    after_results
  show (V m c main_v1 : Vec F S100000x128 .f32) (ix2 v b) = _
  rw [e]
  exact transpose_ix2_apply _ _ v b

/-- The whole result array at an index of chunk `i` is output block `i` at the index within the chunk. -/
theorem KOUT_at (X0 X1 : Vec F S100000x128 .f32) (i : Fin 10) (k : S100000x128.Idx) (y : S10000x128.Idx)
    (h0 : (k 0).val = 10000 * i.val + (y 0).val) (h1 : (k 1).val = (y 1).val) : KOUT X0 X1 k = OUTB X0 X1 i y := by
  have hy0 : (y 0).val < 10000 := idx2_lt0 y
  have hi : i.val < 10 := i.isLt
  unfold KOUT
  refine congr (congrArg (OUTB X0 X1) (Fin.ext ?_)) (funext fun a => ?_)
  · show (k 0).val / 10000 = i.val
    omega
  · match a with
    | ⟨0, _⟩ => exact Fin.ext (by show (k 0).val % 10000 = (y 0).val; omega)
    | ⟨1, _⟩ => exact Fin.ext h1

/-- A point that writes the result back is a point of the rescaling. -/
theorem ten_le_of_flush (t : Fin cfg0.N) (hf : (cfg0.win 2).flush t = true) : 10 ≤ t.val := by
  by_contra h
  rw [noFlush0_2 t (by omega)] at hf
  exact Bool.false_ne_true hf

/-- What a point of the rescaling writes back is its block of the whole result array. -/
theorem flushed_eq (c : Dev nD) (t : Fin cfg0.N) (hf : (cfg0.win 2).flush t = true) :
    (dats m 0 c).flushed 2 t = ((cfg0.win 2).blk t).view.read (Elt F) (KOUT (xarr0 m c) (xarr1 m c)) := by
  have hN : cfg0.N = 20 := N_0
  have ht : 10 ≤ t.val := ten_le_of_flush t hf
  have hlt : t.val < 20 := by have := t.isLt; omega
  show (cfg0.win 2).cut (grid0.coords t) ((dats m 0 c).after 2 t) = _
  rw [after0_2]
  funext y
  show OUTB (xarr0 m c) (xarr1 m c) (outIdx t) y = KOUT (xarr0 m c) (xarr1 m c) (((cfg0.win 2).blk t).view.emb y)
  have hidx := index0_2 t ht
  have hi0 : win0_2.index t (0 : Fin 2) = t.val - 10 := congrFun hidx 0
  have hi1 : win0_2.index t (1 : Fin 2) = 0 := congrFun hidx 1
  refine (KOUT_at _ _ (outIdx t) _ y ?_ ?_).symm
  · show win0_2.index t (0 : Fin 2) * 10000 + 1 * (y 0).val = 10000 * ((t.val - 10) % 10) + (y 0).val
    rw [hi0]; omega
  · show win0_2.index t (1 : Fin 2) * 128 + 1 * (y 1).val = (y 1).val
    rw [hi1]; omega

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v2).slice (win0_2.rect t)).set ↔ _
  rw [View.set_slice_whole, Rect.mem_set_unit]
  exact Iff.rfl

/-- Every index of the result array is in the block of a point that writes back: row `r` in that of point `10 + r / 10000`. -/
theorem covered (i : S100000x128.Idx) :
    ∃ t : Fin cfg0.N, (cfg0.win 2).flush t = true ∧ i ∈ ((cfg0.win 2).blk t).view.set := by
  have hN : cfg0.N = 20 := N_0
  have h0 : (i 0).val < 100000 := idx2_lt0 i
  have h1 : (i 1).val < 128 := idx2_lt1 i
  let t : Fin cfg0.N := ⟨10 + (i 0).val / 10000, by rw [hN]; omega⟩
  have ht : 10 ≤ t.val := Nat.le_add_right _ _
  have hidx := index0_2 t ht
  have hi0 : win0_2.index t (0 : Fin 2) = t.val - 10 := congrFun hidx 0
  have hi1 : win0_2.index t (1 : Fin 2) = 0 := congrFun hidx 1
  have htv : t.val - 10 = (i 0).val / 10000 := Nat.add_sub_cancel_left 10 _
  refine ⟨t, flush0_2 t ht, ?_⟩
  rw [mem_blk]
  intro a
  match a with
  | ⟨0, _⟩ =>
    show win0_2.index t (0 : Fin 2) * 10000 ≤ (i 0).val ∧ (i 0).val < win0_2.index t (0 : Fin 2) * 10000 + 10000
    rw [hi0, htv]; omega
  | ⟨1, _⟩ =>
    show win0_2.index t (1 : Fin 2) * 128 ≤ (i 1).val ∧ (i 1).val < win0_2.index t (1 : Fin 2) * 128 + 128
    rw [hi1]; omega

/-- THE RESULT'S ARRAY after the run: the whole-array function of the operand arrays. -/
theorem final2 (c : Dev nD) :
    ((dats m 0 c).arrAt 2 cfg0.N : Vec F S100000x128 .f32) = KOUT (xarr0 m c) (xarr1 m c) :=
  (dats m 0 c).arrAt_eq_of_cover 2 (KOUT (xarr0 m c) (xarr1 m c)) (fun t hf => flushed_eq m c t hf) covered

/-- THE PROGRAM'S RESULT after the host line that follows the region: the result's array transposed. -/
theorem result_apply (c : Dev nD) (b : Fin 128) (v : Fin 100000) :
    (Pipeline.afterTail₀ cfgs (dats m) 0 (V0 m) [hostOps1] c main_v3 : Vec F S128x100000 .f32) (ix2 b v)
      = KOUT (xarr0 m c) (xarr1 m c) (ix2 v b) := by
  have e : (Pipeline.afterTail₀ cfgs (dats m) 0 (V0 m) [hostOps1] c main_v3 : Vec F S128x100000 .f32)
      = transpose S128x100000 [1, 0] ((dats m 0 c).arrAt 2 cfg0.N : Vec F S100000x128 .f32) transposes_S100000x128_S128x100000_1_0 := by
    unfold Pipeline.afterTail₀
    show StableHlo.after hostOps1 _ (Proc.devRef .tc main_v3) = _
    after_results
    exact congrArg (fun x : Vec F S100000x128 .f32 => transpose S128x100000 [1, 0] x transposes_S100000x128_S128x100000_1_0)
      (Pipeline.withArrays_arr spec0 launch0.win.arr_inj c (V0 m c) (fun w => (dats m 0 c).arrAt w (cfgs 0).N) 2)
  rw [e, final2 m c]
  exact transpose_ix2_apply _ _ b v

end Cert.KernelIdeal.Hand

end
-- ==== Proof.Spec.lean ====
/-
  The mathematical specification: the row-wise softmax of a real matrix with 128 rows and 100000 columns,
  and the chunked evaluation of it the kernel performs (ten chunks of 10000 columns each: per chunk a
  maximum and a sum of exponentials, then one rescaling by the overall maximum and the overall sum).
  Both programs are shown to compute `soft` entry by entry: the reference directly, the kernel through
  `chunkSoft`.
-/
import Mathlib.Analysis.SpecialFunctions.Exp
import Mathlib.Algebra.BigOperators.Fin
import Mathlib.Order.Fin.Basic

noncomputable section

open scoped BigOperators

namespace Cert.Spec

/-- Column `10000 * i + r`: the `r`-th column of chunk `i`. -/
def col (i : Fin 10) (r : Fin 10000) : Fin 100000 :=
  ⟨10000 * i.val + r.val, by have := i.isLt; have := r.isLt; omega⟩

/-- The largest entry of row `b`. -/
def rowMax (X : Fin 128 → Fin 100000 → ℝ) (b : Fin 128) : ℝ :=
  Finset.univ.sup' (Finset.univ_nonempty (α := Fin 100000)) (X b)

/-- The normaliser of row `b`: the sum of the exponentials of the entries less the row's maximum. -/
def rowSum (X : Fin 128 → Fin 100000 → ℝ) (b : Fin 128) : ℝ :=
  ∑ v : Fin 100000, Real.exp (X b v - rowMax X b)

/-- The softmax of row `b` at column `v`. -/
def soft (X : Fin 128 → Fin 100000 → ℝ) (b : Fin 128) (v : Fin 100000) : ℝ :=
  Real.exp (X b v - rowMax X b) / rowSum X b

/-- The largest entry of row `b` within chunk `i`. -/
def cmax (X : Fin 128 → Fin 100000 → ℝ) (b : Fin 128) (i : Fin 10) : ℝ :=
  Finset.univ.sup' (Finset.univ_nonempty (α := Fin 10000)) (fun r => X b (col i r))

/-- Chunk `i`'s sum of exponentials of row `b`'s entries less the chunk's maximum. -/
def csum (X : Fin 128 → Fin 100000 → ℝ) (b : Fin 128) (i : Fin 10) : ℝ :=
  ∑ r : Fin 10000, Real.exp (X b (col i r) - cmax X b i)

/-- The largest of the ten chunk maxima of row `b`. -/
def gmax (X : Fin 128 → Fin 100000 → ℝ) (b : Fin 128) : ℝ :=
  Finset.univ.sup' (Finset.univ_nonempty (α := Fin 10)) (cmax X b)

/-- The chunk sums rescaled to the overall maximum and added. -/
def gsum (X : Fin 128 → Fin 100000 → ℝ) (b : Fin 128) : ℝ :=
  ∑ i : Fin 10, Real.exp (cmax X b i - gmax X b) * csum X b i

/-- The kernel's value at row `b`, chunk `i`, column `r` of the chunk: the chunk-local exponential times
    the chunk's scale. -/
def chunkSoft (X : Fin 128 → Fin 100000 → ℝ) (b : Fin 128) (i : Fin 10) (r : Fin 10000) : ℝ :=
  Real.exp (X b (col i r) - cmax X b i) * (Real.exp (cmax X b i - gmax X b) * (1 / gsum X b))

end Cert.Spec

end
-- ==== Proof.ChunkAlg.lean ====
/-
  The chunked evaluation of the softmax is the softmax (over the reals).
-/
import proofs.«166809_g81492709474519_cont_9to1c4b_556_13_alg».proof.Proof.Spec

noncomputable section

open scoped BigOperators

namespace Cert.Spec

namespace ChunkAlg

/-- The value of a chunk column. -/
theorem col_val (i : Fin 10) (r : Fin 10000) : (col i r).val = 10000 * i.val + r.val := rfl

/-- Chunk and offset of a column: `v = 10000 * (v / 10000) + v % 10000`. -/
def colEquiv : Fin 10 × Fin 10000 ≃ Fin 100000 where
  toFun p := col p.1 p.2
  invFun v := (⟨v.val / 10000, by have := v.isLt; omega⟩, ⟨v.val % 10000, Nat.mod_lt _ (by norm_num)⟩)
  left_inv := by
    rintro ⟨i, r⟩
    have hi := i.isLt
    have hr := r.isLt
    refine Prod.ext (Fin.ext ?_) (Fin.ext ?_)
    · show (10000 * i.val + r.val) / 10000 = i.val
      omega
    · show (10000 * i.val + r.val) % 10000 = r.val
      omega
  right_inv := by
    intro v
    apply Fin.ext
    show 10000 * (v.val / 10000) + v.val % 10000 = v.val
    omega

theorem colEquiv_apply (p : Fin 10 × Fin 10000) : colEquiv p = col p.1 p.2 := rfl

/-- Every column is a column of some chunk. -/
theorem exists_col (v : Fin 100000) : ∃ (i : Fin 10) (r : Fin 10000), col i r = v :=
  ⟨(colEquiv.symm v).1, (colEquiv.symm v).2, colEquiv.apply_symm_apply v⟩

/-- A sum over all columns is the sum over the chunks of the sums within the chunks. -/
theorem sum_col (f : Fin 100000 → ℝ) :
    ∑ v : Fin 100000, f v = ∑ i : Fin 10, ∑ r : Fin 10000, f (col i r) := by
  rw [← Equiv.sum_comp colEquiv f, Fintype.sum_prod_type]
  rfl

/-- The largest chunk maximum is the row's maximum. -/
theorem gmax_eq_rowMax (X : Fin 128 → Fin 100000 → ℝ) (b : Fin 128) : gmax X b = rowMax X b := by
  unfold gmax rowMax
  apply le_antisymm
  · refine Finset.sup'_le _ _ (fun i _ => ?_)
    unfold cmax
    refine Finset.sup'_le _ _ (fun r _ => ?_)
    exact Finset.le_sup' (X b) (Finset.mem_univ (col i r))
  · refine Finset.sup'_le _ _ (fun v _ => ?_)
    obtain ⟨i, r, rfl⟩ := exists_col v
    have h1 : X b (col i r) ≤ cmax X b i :=
      Finset.le_sup' (fun r => X b (col i r)) (Finset.mem_univ r)
    exact h1.trans (Finset.le_sup' (cmax X b) (Finset.mem_univ i))

/-- The rescaled chunk sums add up to the row's normaliser. -/
theorem gsum_eq_rowSum (X : Fin 128 → Fin 100000 → ℝ) (b : Fin 128) : gsum X b = rowSum X b := by
  unfold gsum rowSum csum
  rw [sum_col, gmax_eq_rowMax]
  refine Finset.sum_congr rfl (fun i _ => ?_)
  rw [Finset.mul_sum]
  refine Finset.sum_congr rfl (fun r _ => ?_)
  rw [← Real.exp_add]
  congr 1
  ring

end ChunkAlg

/-- The kernel's chunked value is the softmax at the chunk's column. -/
theorem chunkSoft_eq_soft (X : Fin 128 → Fin 100000 → ℝ) (b : Fin 128) (i : Fin 10) (r : Fin 10000) :
    chunkSoft X b i r = soft X b (col i r) := by
  unfold chunkSoft soft
  rw [ChunkAlg.gsum_eq_rowSum, ChunkAlg.gmax_eq_rowMax, ← mul_assoc, ← Real.exp_add, mul_one_div]
  have h : X b (col i r) - cmax X b i + (cmax X b i - rowMax X b) = X b (col i r) - rowMax X b := by
    ring
  rw [h]

end Cert.Spec

end
-- ==== Proof.KLemmas.lean ====
/-
  Extended-real facts used when the kernel's payloads are read at an index: a finite sum and a finite
  maximum of real coercions are coercions; the two bit patterns the kernel folds from; and a column
  reduction of a two-axis array read as a fold or a sum over the first coordinate.
-/
import Idealize.ShloMosaic.Lib.ValueIdx
import Idealize.ShloMosaic.Lib.IdealHost
import Idealize.ShloMosaic.PureOps.Ideal.Laws
import Mathlib.Data.EReal.Basic
import Mathlib.Data.EReal.Operations
import Mathlib.Data.Finset.Lattice.Fold
import Mathlib.Order.Lattice
import Mathlib.Algebra.BigOperators.Group.Finset.Basic

noncomputable section

open scoped BigOperators

namespace Cert.KLemmas

open Idealize.ShloMosaic Idealize.ShloMosaic.ValueIdx

/-- A finite sum of real coercions is the coercion of the sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The fold of `max` from `⊥` over real coercions is the coercion of the maximum. -/
theorem fold_max_coe {n : Nat} (H : (Finset.univ : Finset (Fin n)).Nonempty) (f : Fin n → ℝ) :
    (Finset.univ : Finset (Fin n)).fold max (⊥ : EReal) (fun k => ((f k : ℝ) : EReal))
      = ((Finset.univ.sup' H f : ℝ) : EReal) := by
  have h1 : ((Finset.univ.sup' H f : ℝ) : EReal) = Finset.univ.sup' H (fun k => ((f k : ℝ) : EReal)) :=
    Finset.comp_sup'_eq_sup'_comp H (fun x : ℝ => (x : EReal)) (fun x y => EReal.coe_strictMono.monotone.map_sup x y)
  rw [h1, Finset.sup'_eq_sup]
  rfl

/-- The pattern `0xFF800000` is `-∞`. -/
theorem ofBits_negInf : Ideal.ofBits .f32 0xFF800000#32 = (⊥ : EReal) := by
  simp [Ideal.ofBits, Ideal.ieee]

/-- The index over column `b` with first coordinate `k` inserted. -/
theorem lift_col {n : Nat} (h : (⟨2, ![n, 128]⟩ : Shape).Reduces [0] ⟨1, ![128]⟩) (b : Fin 128) (k : Fin n) :
    h.lift (ix1 b) k = ix2 k b := by
  funext a
  match a with
  | ⟨0, _⟩ => exact Fin.ext rfl
  | ⟨1, _⟩ => exact Fin.ext rfl

/-- A column maximum from `-∞`, read at column `b`: the fold of `max` over the first coordinate. -/
theorem colmax_apply {n : Nat} (src : FVec Ideal ⟨2, ![n, 128]⟩ .f32)
    (h : (⟨2, ![n, 128]⟩ : Shape).Reduces [0] ⟨1, ![128]⟩) (hφ : FKind.Formats .f32)
    (hacc : (0xFF800000#32 : BitVec 32) = FKind.maximumf.neutral .f32 hφ) (b : Fin 128) :
    multiReduction (F := Ideal) .maximumf [0] ⟨1, ![128]⟩ src 0xFF800000#32 h hφ hacc (ix1 b)
      = (Finset.univ : Finset (Fin n)).fold max (⊥ : EReal) (fun k => src (ix2 k b)) := by
  refine (Ideal.multiReduction_maximumf_single src _ h hφ hacc (ix1 b)).trans ?_
  show (Finset.univ : Finset (Fin n)).fold max (Ideal.ofBits .f32 0xFF800000#32) (fun k => src (h.lift (ix1 b) k)) = _
  rw [ofBits_negInf]
  exact congrArg (fun f => Finset.fold max (⊥ : EReal) f (Finset.univ : Finset (Fin n)))
    (funext fun k => congrArg src (lift_col h b k))

/-- A column sum from zero, read at column `b`: the sum over the first coordinate. -/
theorem colsum_apply {n : Nat} (src : FVec Ideal ⟨2, ![n, 128]⟩ .f32)
    (h : (⟨2, ![n, 128]⟩ : Shape).Reduces [0] ⟨1, ![128]⟩) (hφ : FKind.Formats .f32)
    (hacc : (0x00000000#32 : BitVec 32) = FKind.add.neutral .f32 hφ) (b : Fin 128) :
    multiReduction (F := Ideal) .add [0] ⟨1, ![128]⟩ src 0x00000000#32 h hφ hacc (ix1 b)
      = ∑ k : Fin n, src (ix2 k b) := by
  refine (Ideal.multiReduction_add_single src _ h hφ hacc (ix1 b)).trans ?_
  show ∑ k : Fin n, src (h.lift (ix1 b) k) = _
  exact Finset.sum_congr rfl fun k _ => congrArg src (lift_col h b k)

end Cert.KLemmas

end
-- ==== Proof.KPay12.lean ====
/-
  The first chunk payloads read at an index: the sum of the two operands, and the column maxima of that
  sum, as real coercions when every entry of the sum is one.
-/
import proofs.«166809_g81492709474519_cont_9to1c4b_556_13_alg».proof.Proof.KDefs
import proofs.«166809_g81492709474519_cont_9to1c4b_556_13_alg».proof.Proof.KLemmas
import Idealize.ShloMosaic.Lib.ValueIdx
import Idealize.ShloMosaic.Lib.ValueLayout
import Mathlib.Data.Finset.Lattice.Fold

noncomputable section

open scoped BigOperators

namespace Cert.KPay

open Idealize.ShloMosaic Idealize.ShloMosaic.ValueIdx Cert.KernelIdeal Cert.KernelIdeal.Gen Cert.KLemmas

/-- The maximum of a real family over a chunk's rows. -/
def rmax (y : Fin 10000 → ℝ) : ℝ := Finset.univ.sup' (Finset.univ_nonempty (α := Fin 10000)) y

/-- The first payload at `(r, b)`: the sum of the operands there. -/
theorem pay1_apply (A B : FVec Ideal S10000x128 .f32) (r : Fin 10000) (b : Fin 128) :
    k0_pay1 (F := Ideal) A B (ix2 r b) = A (ix2 r b) + B (ix2 r b) := by
  unfold k0_pay1
  simp only [shapeCast_self]
  rfl

/-- The second payload at `(0, b)`: the maximum of column `b`. -/
theorem pay2_apply (A B : FVec Ideal S10000x128 .f32) (Y : Fin 128 → Fin 10000 → ℝ)
    (hY : ∀ (r : Fin 10000) (b : Fin 128), A (ix2 r b) + B (ix2 r b) = ((Y b r : ℝ) : EReal))
    (u : Fin 1) (b : Fin 128) :
    k0_pay2 (F := Ideal) A B (ix2 u b) = ((rmax (Y b) : ℝ) : EReal) := by
  unfold k0_pay2
  refine (shapeCast_a_1a_apply _ _ u b).trans ?_
  refine (colmax_apply (n := 10000) _ _ _ _ b).trans ?_
  refine Eq.trans ?_ (fold_max_coe _ (Y b))
  exact congrArg (fun f => Finset.fold max (⊥ : EReal) f (Finset.univ : Finset (Fin 10000)))
    (funext fun k => (pay1_apply A B k b).trans (hY k b))

/-- The fifth payload is the second. -/
theorem pay5_apply (A B : FVec Ideal S10000x128 .f32) (Y : Fin 128 → Fin 10000 → ℝ)
    (hY : ∀ (r : Fin 10000) (b : Fin 128), A (ix2 r b) + B (ix2 r b) = ((Y b r : ℝ) : EReal))
    (u : Fin 1) (b : Fin 128) :
    k0_pay5 (F := Ideal) A B (ix2 u b) = ((rmax (Y b) : ℝ) : EReal) := by
  unfold k0_pay5
  simp only [shapeCast_self]
  exact pay2_apply A B Y hY u b

end Cert.KPay

end
-- ==== Proof.KPay36.lean ====
/-
  The chunk's exponentials and their column sums read at an index, as real coercions.
-/
import proofs.«166809_g81492709474519_cont_9to1c4b_556_13_alg».proof.Proof.KDefs
import proofs.«166809_g81492709474519_cont_9to1c4b_556_13_alg».proof.Proof.KLemmas
import proofs.«166809_g81492709474519_cont_9to1c4b_556_13_alg».proof.Proof.KPay12
import Idealize.ShloMosaic.Lib.ValueIdx
import Idealize.ShloMosaic.Lib.ValueLayout
import Mathlib.Data.EReal.Operations
import Mathlib.Analysis.SpecialFunctions.Exp

noncomputable section

open scoped BigOperators

namespace Cert.KPay

open Idealize.ShloMosaic Idealize.ShloMosaic.ValueIdx Cert.KernelIdeal Cert.KernelIdeal.Gen Cert.KLemmas

/-- The third payload at `(r, b)`: the exponential of the entry less its column's maximum. -/
theorem pay3_apply (A B : FVec Ideal S10000x128 .f32) (Y : Fin 128 → Fin 10000 → ℝ)
    (hY : ∀ (r : Fin 10000) (b : Fin 128), A (ix2 r b) + B (ix2 r b) = ((Y b r : ℝ) : EReal))
    (r : Fin 10000) (b : Fin 128) :
    k0_pay3 (F := Ideal) A B (ix2 r b) = ((Real.exp (Y b r - rmax (Y b)) : ℝ) : EReal) := by
  have h1 := (pay1_apply A B r b).trans (hY r b)
  have h2 : broadcastTo S10000x128 (k0_pay2 (F := Ideal) A B) broadcasts_S1x128_S10000x128 (ix2 r b)
      = ((rmax (Y b) : ℝ) : EReal) :=
    (broadcastTo_1b_ab_apply _ _ r b).trans (pay2_apply A B Y hY 0 b)
  unfold k0_pay3
  show Ideal.exp (k0_pay1 (F := Ideal) A B (ix2 r b)
      - broadcastTo S10000x128 (k0_pay2 (F := Ideal) A B) broadcasts_S1x128_S10000x128 (ix2 r b)) = _
  rw [h1, h2, ← EReal.coe_sub, Ideal.exp_coe]

/-- The fourth payload is the third (a change of format is the identity on extended reals). -/
theorem pay4_apply (A B : FVec Ideal S10000x128 .f32) (Y : Fin 128 → Fin 10000 → ℝ)
    (hY : ∀ (r : Fin 10000) (b : Fin 128), A (ix2 r b) + B (ix2 r b) = ((Y b r : ℝ) : EReal))
    (r : Fin 10000) (b : Fin 128) :
    k0_pay4 (F := Ideal) A B (ix2 r b) = ((Real.exp (Y b r - rmax (Y b)) : ℝ) : EReal) := by
  unfold k0_pay4
  simp only [shapeCast_self]
  exact pay3_apply A B Y hY r b

/-- The sixth payload at `(0, b)`: the sum of column `b`'s exponentials. -/
theorem pay6_apply (A B : FVec Ideal S10000x128 .f32) (Y : Fin 128 → Fin 10000 → ℝ)
    (hY : ∀ (r : Fin 10000) (b : Fin 128), A (ix2 r b) + B (ix2 r b) = ((Y b r : ℝ) : EReal))
    (u : Fin 1) (b : Fin 128) :
    k0_pay6 (F := Ideal) A B (ix2 u b) = ((∑ r : Fin 10000, Real.exp (Y b r - rmax (Y b)) : ℝ) : EReal) := by
  unfold k0_pay6
  simp only [shapeCast_self]
  refine (shapeCast_a_1a_apply _ _ u b).trans ?_
  refine (colsum_apply (n := 10000) _ _ _ _ b).trans ?_
  refine Eq.trans ?_ (coe_sum _ _)
  exact Finset.sum_congr rfl fun k _ => pay3_apply A B Y hY k b

end Cert.KPay

end
-- ==== Proof.KPay7.lean ====
/-
  The scale payload read at an index: from ten rows of real maxima and ten rows of real sums, the
  exponential of a maximum less the overall maximum, times the reciprocal of the rescaled total.
-/
import proofs.«166809_g81492709474519_cont_9to1c4b_556_13_alg».proof.Proof.KDefs
import proofs.«166809_g81492709474519_cont_9to1c4b_556_13_alg».proof.Proof.KLemmas
import Idealize.ShloMosaic.Lib.ValueIdx
import Idealize.ShloMosaic.Lib.ValueLayout
import Idealize.ShloMosaic.Lib.IdealHost
import Mathlib.Data.EReal.Basic
import Mathlib.Data.EReal.Operations
import Mathlib.Analysis.SpecialFunctions.Exp

noncomputable section

open scoped BigOperators

namespace Cert.KPay

open Idealize.ShloMosaic Idealize.ShloMosaic.ValueIdx Cert.KernelIdeal Cert.KernelIdeal.Gen Cert.KLemmas

/-- The maximum of a real family over the ten chunks. -/
def tmax (y : Fin 10 → ℝ) : ℝ := Finset.univ.sup' (Finset.univ_nonempty (α := Fin 10)) y

/-- The row of column maxima of a ten-row array. -/
def maxRow (M : FVec Ideal S10x128 .f32) : FVec Ideal S1x128 .f32 :=
  shapeCast S1x128 (multiReduction (F := Ideal) .maximumf [0] S128 M 0xFF800000#32 reduces_S10x128_S128 (.inl rfl) rfl)
    shapeCasts_S128_S1x128

/-- The exponentials of a ten-row array's entries less their column maxima. -/
def expo (M : FVec Ideal S10x128 .f32) : FVec Ideal S10x128 .f32 :=
  exp (subf M (broadcastTo S10x128 (maxRow M) broadcasts_S1x128_S10x128))

/-- The row of column sums of those exponentials times a second ten-row array. -/
def sumRow (M P : FVec Ideal S10x128 .f32) : FVec Ideal S1x128 .f32 :=
  shapeCast S1x128 (multiReduction (F := Ideal) .add [0] S128 (mulf (expo M) P) 0x00000000#32 reduces_S10x128_S128 (.inl rfl) rfl)
    shapeCasts_S128_S1x128

/-- The scale payload in those words. -/
theorem pay7_eq (M P : FVec Ideal S10x128 .f32) :
    k0_pay7 (F := Ideal) M P
      = mulf (expo M) (broadcastTo S10x128
          (divf (broadcast S1x128 (Scalar.ofBits (F := Ideal) .f32 0x3F800000#32)) (sumRow M P)) broadcasts_S1x128_S10x128) := by
  unfold k0_pay7
  exact shapeCast_self _ _

section
variable (M P : FVec Ideal S10x128 .f32) (m p : Fin 128 → Fin 10 → ℝ)
  (hM : ∀ (i : Fin 10) (b : Fin 128), M (ix2 i b) = ((m b i : ℝ) : EReal))
  (hP : ∀ (i : Fin 10) (b : Fin 128), P (ix2 i b) = ((p b i : ℝ) : EReal))
include hM

theorem maxRow_apply (u : Fin 1) (b : Fin 128) : maxRow M (ix2 u b) = ((tmax (m b) : ℝ) : EReal) := by
  unfold maxRow
  refine (shapeCast_a_1a_apply _ _ u b).trans ?_
  refine (colmax_apply (n := 10) _ _ _ _ b).trans ?_
  refine Eq.trans ?_ (fold_max_coe _ (m b))
  exact congrArg (fun f => Finset.fold max (⊥ : EReal) f (Finset.univ : Finset (Fin 10))) (funext fun k => hM k b)

theorem expo_apply (i : Fin 10) (b : Fin 128) :
    expo M (ix2 i b) = ((Real.exp (m b i - tmax (m b)) : ℝ) : EReal) := by
  have h2 : broadcastTo S10x128 (maxRow M) broadcasts_S1x128_S10x128 (ix2 i b) = ((tmax (m b) : ℝ) : EReal) :=
    (broadcastTo_1b_ab_apply _ _ i b).trans (maxRow_apply M m hM 0 b)
  unfold expo
  show Ideal.exp (M (ix2 i b) - broadcastTo S10x128 (maxRow M) broadcasts_S1x128_S10x128 (ix2 i b)) = _
  rw [hM, h2, ← EReal.coe_sub, Ideal.exp_coe]

include hP

theorem sumRow_apply (u : Fin 1) (b : Fin 128) :
    sumRow M P (ix2 u b) = ((∑ j : Fin 10, Real.exp (m b j - tmax (m b)) * p b j : ℝ) : EReal) := by
  unfold sumRow
  refine (shapeCast_a_1a_apply _ _ u b).trans ?_
  refine (colsum_apply (n := 10) _ _ _ _ b).trans ?_
  refine Eq.trans ?_ (coe_sum _ _)
  refine Finset.sum_congr rfl fun k _ => ?_
  show expo M (ix2 k b) * P (ix2 k b) = _
  rw [expo_apply M m hM, hP, ← EReal.coe_mul]

/-- The scale payload at `(i, b)`. -/
theorem pay7_apply (i : Fin 10) (b : Fin 128)
    (hs : (∑ j : Fin 10, Real.exp (m b j - tmax (m b)) * p b j) ≠ 0) :
    k0_pay7 (F := Ideal) M P (ix2 i b)
      = ((Real.exp (m b i - tmax (m b)) * (1 / ∑ j : Fin 10, Real.exp (m b j - tmax (m b)) * p b j) : ℝ) : EReal) := by
  rw [pay7_eq]
  show expo M (ix2 i b) * broadcastTo S10x128
      (divf (broadcast S1x128 (Scalar.ofBits (F := Ideal) .f32 0x3F800000#32)) (sumRow M P)) broadcasts_S1x128_S10x128 (ix2 i b) = _
  have h3 : broadcastTo S10x128
      (divf (broadcast S1x128 (Scalar.ofBits (F := Ideal) .f32 0x3F800000#32)) (sumRow M P)) broadcasts_S1x128_S10x128 (ix2 i b)
      = ((1 / ∑ j : Fin 10, Real.exp (m b j - tmax (m b)) * p b j : ℝ) : EReal) := by
    refine (broadcastTo_1b_ab_apply _ _ i b).trans ?_
    show Ideal.div (Ideal.ofBits .f32 0x3F800000#32) (sumRow M P (ix2 0 b)) = _
    rw [sumRow_apply M P m p hM hP, Ideal.ofBits_one_f32, Ideal.div_coe hs, one_mul]
  rw [h3, expo_apply M m hM, ← EReal.coe_mul]

end

end Cert.KPay

end
-- ==== Proof.KValue.lean ====
/-
  The kernel's result array, entry by entry at the ideal instance, is the softmax of the sum of its operands:
  each entry of output block `i` is the chunk-local exponential times the chunk's scale (`chunkSoft`), which
  is the softmax (`chunkSoft_eq_soft`).
-/
import proofs.«166809_g81492709474519_cont_9to1c4b_556_13_alg».proof.Proof.Spec
import proofs.«166809_g81492709474519_cont_9to1c4b_556_13_alg».proof.Proof.ChunkAlg
import proofs.«166809_g81492709474519_cont_9to1c4b_556_13_alg».proof.Proof.KDefs
import proofs.«166809_g81492709474519_cont_9to1c4b_556_13_alg».proof.Proof.KLemmas
import proofs.«166809_g81492709474519_cont_9to1c4b_556_13_alg».proof.Proof.KPay12
import proofs.«166809_g81492709474519_cont_9to1c4b_556_13_alg».proof.Proof.KPay36
import proofs.«166809_g81492709474519_cont_9to1c4b_556_13_alg».proof.Proof.KPay7
import Idealize.ShloMosaic.Lib.ValueIdx
import Idealize.ShloMosaic.Lib.ValueLayout
import Idealize.ShloMosaic.PureOps.Ideal.Laws
import Mathlib.Data.EReal.Basic
import Mathlib.Algebra.Order.BigOperators.Group.Finset
import Mathlib.Analysis.SpecialFunctions.Exp

noncomputable section

open scoped BigOperators

namespace Cert.KValue

open Idealize.ShloMosaic Idealize.ShloMosaic.ValueIdx Cert.KernelIdeal Cert.KernelIdeal.Gen Cert.KernelIdeal.Hand
open Cert.KLemmas Cert.KPay

/-- The last payload at `(r, b)`: the stored exponential there times the scale row at `b`. -/
theorem pay8_apply (E : FVec Ideal S10000x128 .bf16) (f : FVec Ideal S1x128 .f32) (r : Fin 10000) (b : Fin 128) :
    k0_pay8 (F := Ideal) E f (ix2 r b) = E (ix2 r b) * f (ix2 (0 : Fin 1) b) := by
  unfold k0_pay8
  exact congrArg (fun z => E (ix2 r b) * z) (broadcastTo_1b_ab_apply f _ r b)

/-- A chunk's sum of exponentials is positive. -/
theorem csum_pos (X : Fin 128 → Fin 100000 → ℝ) (b : Fin 128) (i : Fin 10) : 0 < Cert.Spec.csum X b i :=
  Finset.sum_pos (fun _ _ => Real.exp_pos _) Finset.univ_nonempty

/-- The rescaled total is positive. -/
theorem gsum_pos (X : Fin 128 → Fin 100000 → ℝ) (b : Fin 128) : 0 < Cert.Spec.gsum X b :=
  Finset.sum_pos (fun i _ => mul_pos (Real.exp_pos _) (csum_pos X b i)) Finset.univ_nonempty

section
variable (X0 X1 : FVec Ideal S100000x128 .f32) (X : Fin 128 → Fin 100000 → ℝ)
  (hX : ∀ (v : Fin 100000) (b : Fin 128), X0 (ix2 v b) + X1 (ix2 v b) = ((X b v : ℝ) : EReal))
include hX

/-- Chunk `i` of the sum of the operands is chunk `i` of `X`. -/
theorem chunk_add (i : Fin 10) (r : Fin 10000) (b : Fin 128) :
    chunk (F := Ideal) (e := .f32) X0 i (ix2 r b) + chunk (F := Ideal) (e := .f32) X1 i (ix2 r b) = ((X b (Cert.Spec.col i r) : ℝ) : EReal) :=
  hX (Cert.Spec.col i r) b

/-- The stored exponentials of chunk `i`. -/
theorem epay_apply (i : Fin 10) (r : Fin 10000) (b : Fin 128) :
    Epay (F := Ideal) X0 X1 i (ix2 r b)
      = ((Real.exp (X b (Cert.Spec.col i r) - Cert.Spec.cmax X b i) : ℝ) : EReal) :=
  pay4_apply (chunk (F := Ideal) (e := .f32) X0 i) (chunk (F := Ideal) (e := .f32) X1 i) (fun b r => X b (Cert.Spec.col i r))
    (chunk_add X0 X1 X hX i) r b

/-- The ten rows of chunk maxima. -/
theorem mm_apply (i : Fin 10) (b : Fin 128) :
    MM (F := Ideal) X0 X1 (ix2 i b) = ((Cert.Spec.cmax X b i : ℝ) : EReal) :=
  pay5_apply (chunk (F := Ideal) (e := .f32) X0 i) (chunk (F := Ideal) (e := .f32) X1 i) (fun b r => X b (Cert.Spec.col i r))
    (chunk_add X0 X1 X hX i) 0 b

/-- The ten rows of chunk sums. -/
theorem pp_apply (i : Fin 10) (b : Fin 128) :
    PP (F := Ideal) X0 X1 (ix2 i b) = ((Cert.Spec.csum X b i : ℝ) : EReal) :=
  pay6_apply (chunk (F := Ideal) (e := .f32) X0 i) (chunk (F := Ideal) (e := .f32) X1 i) (fun b r => X b (Cert.Spec.col i r))
    (chunk_add X0 X1 X hX i) 0 b

/-- The ten rows of scales. -/
theorem ff_apply (i : Fin 10) (b : Fin 128) :
    FF (F := Ideal) X0 X1 (ix2 i b)
      = ((Real.exp (Cert.Spec.cmax X b i - Cert.Spec.gmax X b) * (1 / Cert.Spec.gsum X b) : ℝ) : EReal) :=
  pay7_apply (MM (F := Ideal) X0 X1) (PP (F := Ideal) X0 X1) (fun b i => Cert.Spec.cmax X b i) (fun b i => Cert.Spec.csum X b i)
    (mm_apply X0 X1 X hX) (pp_apply X0 X1 X hX) i b (gsum_pos X b).ne'

end

/-- Output block `i` at its row `r`, column `b`: the chunked softmax value. -/
theorem outb_apply (X0 X1 : FVec Ideal S100000x128 .f32) (X : Fin 128 → Fin 100000 → ℝ)
    (hX : ∀ (v : Fin 100000) (b : Fin 128), X0 (ix2 v b) + X1 (ix2 v b) = ((X b v : ℝ) : EReal))
    (i : Fin 10) (r : Fin 10000) (b : Fin 128) :
    OUTB (F := Ideal) X0 X1 i (ix2 r b) = ((Cert.Spec.chunkSoft X b i r : ℝ) : EReal) := by
  unfold OUTB
  refine (pay8_apply _ _ r b).trans ?_
  show Epay (F := Ideal) X0 X1 i (ix2 r b) * FF (F := Ideal) X0 X1 (ix2 i b) = _
  rw [epay_apply X0 X1 X hX, ff_apply X0 X1 X hX, ← EReal.coe_mul]
  rfl

/-- The kernel's whole result at row `v`, column `b` (its transposed layout): the softmax of `X` at `(b, v)`. -/
theorem kout_apply (X0 X1 : FVec Ideal S100000x128 .f32) (X : Fin 128 → Fin 100000 → ℝ)
    (hX : ∀ (v : Fin 100000) (b : Fin 128), X0 (ix2 v b) + X1 (ix2 v b) = ((X b v : ℝ) : EReal))
    (v : Fin 100000) (b : Fin 128) :
    KOUT (F := Ideal) X0 X1 (ix2 v b) = ((Cert.Spec.soft X b v : ℝ) : EReal) := by
  have hv : Cert.Spec.col ⟨v.val / 10000, by have := v.isLt; omega⟩ ⟨v.val % 10000, Nat.mod_lt _ (by decide)⟩ = v :=
    Fin.ext (Nat.div_add_mod v.val 10000)
  show OUTB (F := Ideal) X0 X1 ⟨v.val / 10000, _⟩ (ix2 (⟨v.val % 10000, _⟩ : Fin 10000) b) = _
  rw [outb_apply X0 X1 X hX, Cert.Spec.chunkSoft_eq_soft, hv]

end Cert.KValue

end
-- ==== Proof.KI.ValueRun.lean ====
/-
  The idealized kernel's run with its result named: under real witnesses of the entrywise sum of the two arguments,
  every execution ends with the result at the softmax of that sum, entry by entry, and the arguments unchanged.
-/
import proofs.«166809_g81492709474519_cont_9to1c4b_556_13_alg».proof.Proof.KI.Final
import proofs.«166809_g81492709474519_cont_9to1c4b_556_13_alg».proof.Proof.KValue

noncomputable section

namespace Cert.KernelIdeal.Hand

open Idealize.ShloMosaic Idealize.ShloMosaic.TcCoe Idealize.SL.Sem Idealize.ShloMosaic.ValueIdx
open Cert.KernelIdeal Cert.KernelIdeal.Gen

/-- The two argument arrays of a memory, as arrays of extended reals. -/
abbrev argArr0 (m : (ℓ : Loc nD τ sig) → Buf (Elt Ideal) ℓ) (c : Dev nD) : FVec Ideal S128x100000 .f32 :=
  m ((c.tc : Thread nD τ).loc main_arg0)
abbrev argArr1 (m : (ℓ : Loc nD τ sig) → Buf (Elt Ideal) ℓ) (c : Dev nD) : FVec Ideal S128x100000 .f32 :=
  m ((c.tc : Thread nD τ).loc main_arg1)

/-- The idealized kernel's run: the result is the softmax of the arguments' entrywise sum. -/
theorem value_run (m : (ℓ : Loc nD τ sig) → Buf (Elt Ideal) ℓ) (ρ : Dev nD → PrngReg) (X : Dev nD → Fin 128 → Fin 100000 → ℝ)
    (hX : ∀ (c : Dev nD) (b : Fin 128) (v : Fin 100000),
      argArr0 m c (ix2 b v) + argArr1 m c (ix2 b v) = ((X c b v : ℝ) : EReal)) :
    θ_run (defs (F := Ideal)) (onTc (τ := τ) (main (F := Ideal))) ⟨m, fun _ => 0, ρ⟩ (fun r => ∀ c : Dev nD,
      r.2.mem ((c.tc : Thread nD τ).loc main_v3)
          = (fun i => ((Cert.Spec.soft (X c) ⟨(i 0).val, idx2_lt0 i⟩ ⟨(i 1).val, idx2_lt1 i⟩ : ℝ) : EReal) : FVec Ideal S128x100000 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run (defs (F := Ideal)) _ _).mono (fun r h c => ⟨?_, ?_, ?_⟩) (run_main (F := Ideal) m ρ)
  · refine ((h c).2 main_v3 (Pipeline.mem_restRefs_of main_v3 (by decide) (by decide))).trans ?_
    have hX' : ∀ (v : Fin 100000) (b : Fin 128),
        xarr0 m c (ix2 v b) + xarr1 m c (ix2 v b) = ((X c b v : ℝ) : EReal) := fun v b => by
      rw [xarr0_apply m c v b, xarr1_apply m c v b]
      exact hX c b v
    funext i
    have hi : i = ix2 (⟨(i 0).val, idx2_lt0 i⟩ : Fin 128) (⟨(i 1).val, idx2_lt1 i⟩ : Fin 100000) :=
      funext fun a => by match a with | ⟨0, _⟩ => rfl | ⟨1, _⟩ => rfl
    refine (congrArg (Pipeline.afterTail₀ cfgs (dats m) 0 (V0 m) [hostOps1] c main_v3 : FVec Ideal S128x100000 .f32) hi).trans ?_
    refine (result_apply m c _ _).trans ?_
    exact Cert.KValue.kout_apply (xarr0 m c) (xarr1 m c) (X c) hX' _ _
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.Hand

end
-- ==== Proof.RefValue.lean ====
/-
  The reference program's result, entry by entry, is the softmax of the sum of its two arguments.
-/
import proofs.«166809_g81492709474519_cont_9to1c4b_556_13_alg».proof.Proof.Spec
import proofs.«166809_g81492709474519_cont_9to1c4b_556_13_alg».proof.Proof.Gen.ReferenceIdeal.Read
import Idealize.ShloMosaic.Lib.ValueIdx
import Idealize.ShloMosaic.Lib.IdealHost
import Mathlib.Data.Finset.Fold
import Mathlib.Data.Finset.Lattice.Fold
import Mathlib.Data.EReal.Operations

noncomputable section

open scoped BigOperators

namespace Cert.RefValue

open Idealize.ShloMosaic Idealize.ShloMosaic.ValueIdx Cert.ReferenceIdeal Cert.ReferenceIdeal.Gen Cert.ReferenceIdeal.Read

/-! ## Extended reals that are reals -/

/-- The coercion of the reals into the extended reals carries a finite sum to the sum of the coercions. -/
theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The maximum, from minus infinity, of finitely many reals (a nonempty family) is the coercion of their largest. -/
theorem fold_max_bot_coe {n : ℕ} (hn : (Finset.univ : Finset (Fin n)).Nonempty) (f : Fin n → ℝ) :
    Finset.fold max (⊥ : EReal) (fun k => ((f k : ℝ) : EReal)) (Finset.univ : Finset (Fin n))
      = ((Finset.univ.sup' hn f : ℝ) : EReal) := by
  apply le_antisymm
  · exact (Finset.fold_max_le _).2 ⟨bot_le, fun k _ => EReal.coe_le_coe_iff.2 (Finset.le_sup' f (Finset.mem_univ k))⟩
  · obtain ⟨i, _, hi⟩ := Finset.exists_mem_eq_sup' hn f
    rw [hi]
    exact (Finset.le_fold_max _).2 (Or.inr ⟨i, Finset.mem_univ i, le_rfl⟩)

/-- A quotient by one is the dividend. -/
theorem ideal_div_one (x : EReal) : Ideal.div x 1 = x := by
  have h := Ideal.div_coe (y := 1) one_ne_zero x
  rw [EReal.coe_one] at h
  rw [h, one_div_one, EReal.coe_one, mul_one]

/-- A quotient of reals by a real that is not zero is the real quotient. -/
theorem div_coe_coe (a s : ℝ) (hs : s ≠ 0) : Ideal.div (a : EReal) (s : EReal) = ((a / s : ℝ) : EReal) := by
  rw [Ideal.div_coe hs, ← EReal.coe_mul, mul_one_div]

/-! ## The stages of the reference, read at an index -/

/-- The reduced index `b` with column `k` put back is the index of row `b`, column `k`. -/
theorem lift_ix2 (h : S128x100000.Reduces [1] S128) (b : Fin 128) (k : Fin (S128x100000.size 1)) :
    h.lift (ix1 b) k = ix2 b (⟨k.val, k.isLt⟩ : Fin 100000) := by
  funext c; apply Fin.ext
  fin_cases c <;> rfl

/-- A row's normaliser is positive: a nonempty sum of exponentials. -/
theorem rowSum_pos (X : Fin 128 → Fin 100000 → ℝ) (b : Fin 128) : 0 < Cert.Spec.rowSum X b := by
  unfold Cert.Spec.rowSum
  exact Finset.sum_pos (fun k _ => Real.exp_pos _) Finset.univ_nonempty

/-- The pattern of minus infinity is the bottom of the extended reals. -/
theorem ofBits_neg_inf : Ideal.ofBits .f32 0xFF800000#32 = (⊥ : EReal) := by simp [Ideal.ofBits, Ideal.ieee]

section Stages

variable (x0 x1 : FVec Ideal S128x100000 .f32) (X : Fin 128 → Fin 100000 → ℝ)
  (hX : ∀ (b : Fin 128) (v : Fin 100000), x0 (ix2 b v) + x1 (ix2 b v) = ((X b v : ℝ) : EReal))

include hX

/-- The scaled sum of the two arguments (the scale is one) is the real matrix. -/
theorem v2_at (b : Fin 128) (v : Fin 100000) : val_main_v2 (F := Ideal) x0 x1 (ix2 b v) = ((X b v : ℝ) : EReal) := by
  rw [val_main_v2_apply, val_main_v0_apply, val_main_v1_apply, val_main_cst_apply]
  show Ideal.div (x0 (ix2 b v) + x1 (ix2 b v)) (Ideal.ofBits .f32 0x3F800000#32) = _
  rw [hX, Ideal.ofBits_one_f32, ideal_div_one]

/-- The row-wise maximum of the reference, from minus infinity, is the largest entry of the row. -/
theorem v3_at (b : Fin 128) : val_main_v3 (F := Ideal) x0 x1 (ix1 b) = ((Cert.Spec.rowMax X b : ℝ) : EReal) := by
  have h : S128x100000.Reduces [1] S128 := by decide
  unfold val_main_v3
  rw [Host.reduce_eq_fold_single FloatOps.maximumf _ _ reducesTo_S128x100000_S128_d1 h h_S_]
  have hf : (val_main_v2 (F := Ideal) x0 x1 ∘ h.lift (ix1 b)) = fun k : Fin 100000 => ((X b k : ℝ) : EReal) :=
    funext fun k => by
      show val_main_v2 (F := Ideal) x0 x1 (h.lift (ix1 b) k) = _
      rw [lift_ix2 h b k]
      exact v2_at x0 x1 X hX b _
  have hb : val_main_cst_0 (F := Ideal) (Shape.Idx.first h_S_) = (⊥ : EReal) := by
    rw [val_main_cst_0_apply]
    show Ideal.ofBits .f32 0xFF800000#32 = ⊥
    simp [Ideal.ofBits, Ideal.ieee]
  rw [hb]
  refine Eq.trans ?_ (fold_max_bot_coe Finset.univ_nonempty (X b))
  exact congrArg (fun f => Finset.fold max (⊥ : EReal) f (Finset.univ : Finset (Fin 100000))) hf

/-- The row maximum, joined once more with minus infinity and broadcast along the row, at row `b`, column `v`. -/
theorem v7_at (b : Fin 128) (v : Fin 100000) :
    val_main_v7 (F := Ideal) x0 x1 (ix2 b v) = ((Cert.Spec.rowMax X b : ℝ) : EReal) := by
  rw [val_main_v7_apply, val_main_v6_apply]
  have hi : idx_main_v6 (idx_main_v7 (ix2 b v)) = ix1 b := funext fun a => by match a with | ⟨0, _⟩ => rfl
  rw [hi, val_main_v5_apply, val_main_v4_apply, val_main_cst_1_apply, v3_at x0 x1 X hX b]
  show max (Ideal.ofBits .f32 0xFF800000#32) _ = _
  rw [ofBits_neg_inf]
  exact max_eq_right bot_le

/-- The exponential of an entry less its row's maximum. -/
theorem v9_at (b : Fin 128) (v : Fin 100000) :
    val_main_v9 (F := Ideal) x0 x1 (ix2 b v) = ((Real.exp (X b v - Cert.Spec.rowMax X b) : ℝ) : EReal) := by
  rw [val_main_v9_apply, val_main_v8_apply, v2_at x0 x1 X hX b v, v7_at x0 x1 X hX b v]
  show Ideal.exp (((X b v : ℝ) : EReal) - ((Cert.Spec.rowMax X b : ℝ) : EReal)) = _
  rw [← EReal.coe_sub, Ideal.exp_coe]

/-- The row's sum of exponentials, from zero, is the row's normaliser. -/
theorem v10_at (b : Fin 128) : val_main_v10 (F := Ideal) x0 x1 (ix1 b) = ((Cert.Spec.rowSum X b : ℝ) : EReal) := by
  rw [val_main_v10_apply, val_main_cst_2_apply]
  show Ideal.ofBits .f32 0x00000000#32 + _ = _
  rw [Ideal.ofBits_zero_f32, zero_add]
  unfold Cert.Spec.rowSum
  rw [coe_sum]
  refine Finset.sum_congr rfl fun k _ => ?_
  have hi : idx_main_v10 (ix1 b) k = ix2 b k := funext fun a => by match a with | ⟨0, _⟩ => rfl | ⟨1, _⟩ => rfl
  rw [hi]
  exact v9_at x0 x1 X hX b k

/-- The normaliser broadcast along the row, at row `b`, column `v`. -/
theorem v12_at (b : Fin 128) (v : Fin 100000) :
    val_main_v12 (F := Ideal) x0 x1 (ix2 b v) = ((Cert.Spec.rowSum X b : ℝ) : EReal) := by
  rw [val_main_v12_apply, val_main_v11_apply]
  have hi : idx_main_v11 (idx_main_v12 (ix2 b v)) = ix1 b := funext fun a => by match a with | ⟨0, _⟩ => rfl
  rw [hi]
  exact v10_at x0 x1 X hX b

end Stages

/-- Where the two arguments add up, entry by entry, to the real matrix `X`, the reference's result at
    row `b`, column `v` is the softmax of `X` there. -/
theorem ref_apply (x0 x1 : FVec Ideal S128x100000 .f32) (X : Fin 128 → Fin 100000 → ℝ)
    (hX : ∀ (b : Fin 128) (v : Fin 100000), x0 (ix2 b v) + x1 (ix2 b v) = ((X b v : ℝ) : EReal))
    (b : Fin 128) (v : Fin 100000) :
    Cert.ReferenceIdeal.Read.val_main_v13 (F := Ideal) x0 x1 (ix2 b v) = ((Cert.Spec.soft X b v : ℝ) : EReal) := by
  rw [val_main_v13_apply, v9_at x0 x1 X hX b v, v12_at x0 x1 X hX b v]
  show Ideal.div _ _ = _
  rw [div_coe_coe _ _ (rowSum_pos X b).ne']
  unfold Cert.Spec.soft
  rfl

end Cert.RefValue

end
-- ==== Proof.Finite.lean ====
/-
  Under the precondition (every entry of both arguments finite) the entrywise sum of the arguments is a real matrix.
-/
import proofs.«166809_g81492709474519_cont_9to1c4b_556_13_alg».proof.Proof.Gen.Pre_finite_inputs
import Idealize.ShloMosaic.Lib.ValueIdx
import Idealize.ShloMosaic.Lib.ReduceAll

noncomputable section

namespace Cert.Finite

open Idealize.ShloMosaic Idealize.ShloMosaic.ValueIdx

/-- The rank-zero shape has one index. -/
instance : Subsingleton Cert.Pre_finite_inputs.S_.Idx := ⟨fun _ _ => funext fun d => d.elim0⟩

/-- An extended real whose absolute value compares below the pattern of plus infinity is a real. -/
theorem coe_toReal_of_abs_lt (x : EReal)
    (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => rfl

/-- Every entry of an argument whose finiteness test came out true is a real. -/
theorem entry_real (x : FVec Ideal Cert.Pre_finite_inputs.S128x100000 .f32)
    (init : IVec Cert.Pre_finite_inputs.S_ 1)
    (h : Host.reduce IntOp.andi
          (cmpf .olt (Host.absf x)
            (broadcastInDim Cert.Pre_finite_inputs.S128x100000 ![] Cert.Pre_finite_inputs.Facts.bcast_S_S128x100000
              (constant (F := Ideal) Cert.Pre_finite_inputs.S_ .f32 0x7F800000#32)))
          init Cert.Pre_finite_inputs.Facts.reducesTo_S128x100000_S_d0_1 Cert.Pre_finite_inputs.Facts.h_S_ ix0 = 1#1)
    (i : Cert.Pre_finite_inputs.S128x100000.Idx) : (((x i).toReal : ℝ) : EReal) = x i := by
  have e := Host.reduce_andi_all _ init _ _ ix0 h i
  exact coe_toReal_of_abs_lt (x i) e

/-- The precondition gives real witnesses of the entrywise sum of the two arguments. -/
theorem real_of_pre (x0 x1 : FVec Ideal Cert.Pre_finite_inputs.S128x100000 .f32)
    (h : Cert.Pre_finite_inputs.fn (F := Ideal) x0 x1 = fun _ => 1#1) :
    ∃ X : Fin 128 → Fin 100000 → ℝ, ∀ (b : Fin 128) (v : Fin 100000), x0 (ix2 b v) + x1 (ix2 b v) = ((X b v : ℝ) : EReal) := by
  have h0 := congrFun h ix0
  dsimp only [Cert.Pre_finite_inputs.fn] at h0
  obtain ⟨ha, hb⟩ := IntOp.andi_eq_one.1 h0
  refine ⟨fun b v => (x0 (ix2 b v)).toReal + (x1 (ix2 b v)).toReal, fun b v => ?_⟩
  rw [EReal.coe_add, entry_real x0 _ ha (ix2 b v), entry_real x1 _ hb (ix2 b v)]

end Cert.Finite

end
-- ==== Proof.lean ====
/-
  The certificate of a tiled softmax kernel against jax.nn.softmax(logits + gumbel, axis = -1) over f32[128, 100000].

  The kernel works on the transposed arrays in ten chunks of 10000 rows over a grid of twenty points. The first ten
  points sweep the operands once: per chunk they keep exp(x - m_i), with m_i the chunk's column maxima, in a long scratch
  array, and the maxima m_i and the column sums p_i of those exponentials in two ten-row scratch arrays. The eleventh
  point combines them: with M the largest of the m_i and s = Σ_i exp(m_i - M) · p_i it stores the scales
  exp(m_i - M) · (1 / s). The last ten points multiply each chunk of exponentials by its scale row and write it out.
  Over the reals exp(x - m_i) · exp(m_i - M) = exp(x - M), M is the row's maximum and s the row's sum of exp(x - M): the
  result is the softmax. All inputs being finite, every quantity is a real number, so the laws of the reals apply.

  The three frames: each kernel program's body is run case by case at every grid point under an invariant that says
  which chunks and rows of the scratch arrays are already filled in; the reference is a straight line of host
  operations. The algebraic claim: the kernel's result array is read off the frame run block by block, the
  reference's off its run operation by operation, and both are the softmax of the entrywise sum of the arguments.
-/
import proofs.«166809_g81492709474519_cont_9to1c4b_556_13_alg».proof.Defs
import proofs.«166809_g81492709474519_cont_9to1c4b_556_13_alg».proof.Proof.Gen.Kernel
import proofs.«166809_g81492709474519_cont_9to1c4b_556_13_alg».proof.Proof.Gen.KernelIdeal
import proofs.«166809_g81492709474519_cont_9to1c4b_556_13_alg».proof.Proof.Gen.ReferenceIdeal
import proofs.«166809_g81492709474519_cont_9to1c4b_556_13_alg».proof.Proof.Gen.Pre_finite_inputs
import proofs.«166809_g81492709474519_cont_9to1c4b_556_13_alg».proof.Proof.Gen.ReferenceIdeal.Run
import proofs.«166809_g81492709474519_cont_9to1c4b_556_13_alg».proof.Proof.Gen.ReferenceIdeal.Read
import proofs.«166809_g81492709474519_cont_9to1c4b_556_13_alg».proof.Proof.K.Body
import proofs.«166809_g81492709474519_cont_9to1c4b_556_13_alg».proof.Proof.KI.ValueRun
import proofs.«166809_g81492709474519_cont_9to1c4b_556_13_alg».proof.Proof.RefValue
import proofs.«166809_g81492709474519_cont_9to1c4b_556_13_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to the end, nothing faults, and its arguments end unchanged. -/
theorem frame_k : Cert.frame_Kernel := fun m ρ _ => Cert.Kernel.Hand.frame m ρ

/-- The idealized kernel likewise. -/
theorem frame_ki : Cert.frame_KernelIdeal := fun m ρ _ => Cert.KernelIdeal.Hand.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at the softmax of the entrywise sum of the arguments: the precondition makes that sum
    a real matrix on each device, the kernel's run ends at its softmax (read off the frame run), and so does the
    reference's (read off its operations). -/
theorem algebraic : Cert.algebraic_KernelIdeal_ReferenceIdeal := by
  intro m ρ m' ρ' hpre hagree
  choose X hX using fun c => Cert.Finite.real_of_pre _ _ (hpre c)
  refine ⟨fun c => (fun i => ((Cert.Spec.soft (X c) ⟨(i 0).val, idx2_lt0 i⟩ ⟨(i 1).val, idx2_lt1 i⟩ : ℝ) : EReal)),
    Cert.KernelIdeal.Hand.value_run m ρ X hX, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  funext i
  obtain ⟨b, v, rfl⟩ : ∃ (b : Fin 128) (v : Fin 100000), i = ix2 b v := ⟨i 0, i 1, eq_ix2 i⟩
  exact Cert.RefValue.ref_apply _ _ (X c) (hX c) b v

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
